-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3x32x32 : Shape := ⟨4, ![16384, 3, 32, 32]⟩
abbrev S300x3072 : Shape := ⟨2, ![300, 3072]⟩
abbrev S300 : Shape := ⟨1, ![300]⟩
abbrev S300x300 : Shape := ⟨2, ![300, 300]⟩
abbrev S10x300 : Shape := ⟨2, ![10, 300]⟩
abbrev S_ : Shape := ⟨0, ![]⟩

class Facts : Prop where
  bcast_S_S16384x3x32x32 : S_.BroadcastsInDim S16384x3x32x32 (![] : Fin 0 → Fin S16384x3x32x32.rank)
  reducesTo_S16384x3x32x32_S_d0_1_2_3 : S16384x3x32x32.ReducesTo [0, 1, 2, 3] S_
  h_S_ : 0 < S_.numel
  bcast_S_S300x3072 : S_.BroadcastsInDim S300x3072 (![] : Fin 0 → Fin S300x3072.rank)
  reducesTo_S300x3072_S_d0_1 : S300x3072.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S10x300 : S_.BroadcastsInDim S10x300 (![] : Fin 0 → Fin S10x300.rank)
  reducesTo_S10x300_S_d0_1 : S10x300.ReducesTo [0, 1] S_

variable [Facts]

def fn_part2 {F : FTy → Type} [FloatOps F] (main_arg7 : FVec F S10x300 .f32) (main_v33 : IVec S_ 1) : IVec S_ 1 :=
  let main_v34 : FVec F S10x300 .f32 := Host.absf main_arg7
  let main_cst_12 : FVec F S_ .f32 := constant S_ .f32 0x7F800000#32
  let main_v35 : FVec F S10x300 .f32 := broadcastInDim S10x300 ![] bcast_S_S10x300 main_cst_12
  let main_v36 : IVec S10x300 1 := cmpf .olt main_v34 main_v35
  let main_c_13 : IVec S_ 1 := constantI S_ 1 1#1
  let main_v37 : IVec S_ 1 := (fun x v => Host.reduce IntOp.andi x v reducesTo_S10x300_S_d0_1 h_S_) main_v36 main_c_13
  let main_v38 : IVec S_ 1 := andi main_v33 main_v37
  main_v38

def fn_part1 {F : FTy → Type} [FloatOps F] (main_arg4 : FVec F S300x300 .f32) (main_arg5 : FVec F S300 .f32) (main_arg6 : FVec F S300 .f32) (main_arg7 : FVec F S10x300 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x300 .f32 := Host.absf main_arg4
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300 .f32 := Host.absf main_arg6
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg7 main_v33

def fn {F : FTy → Type} [FloatOps F] (main_arg0 : FVec F S16384x3x32x32 .f32) (main_arg1 : FVec F S300x3072 .f32) (main_arg2 : FVec F S300 .f32) (main_arg3 : FVec F S300 .f32) (main_arg4 : FVec F S300x300 .f32) (main_arg5 : FVec F S300 .f32) (main_arg6 : FVec F S300 .f32) (main_arg7 : FVec F S10x300 .f32) : IVec S_ 1 :=
  let main_v0 : FVec F S16384x3x32x32 .f32 := Host.absf main_arg0
  let main_cst : FVec F S_ .f32 := constant S_ .f32 0x7F800000#32
  let main_v1 : FVec F S16384x3x32x32 .f32 := broadcastInDim S16384x3x32x32 ![] bcast_S_S16384x3x32x32 main_cst
  let main_v2 : IVec S16384x3x32x32 1 := cmpf .olt main_v0 main_v1
  let main_c : IVec S_ 1 := constantI S_ 1 1#1
  let main_v3 : IVec S_ 1 := (fun x v => Host.reduce IntOp.andi x v reducesTo_S16384x3x32x32_S_d0_1_2_3 h_S_) main_v2 main_c
  let main_v4 : FVec F S300x3072 .f32 := Host.absf main_arg1
  let main_cst_0 : FVec F S_ .f32 := constant S_ .f32 0x7F800000#32
  let main_v5 : FVec F S300x3072 .f32 := broadcastInDim S300x3072 ![] bcast_S_S300x3072 main_cst_0
  let main_v6 : IVec S300x3072 1 := cmpf .olt main_v4 main_v5
  let main_c_1 : IVec S_ 1 := constantI S_ 1 1#1
  let main_v7 : IVec S_ 1 := (fun x v => Host.reduce IntOp.andi x v reducesTo_S300x3072_S_d0_1 h_S_) main_v6 main_c_1
  let main_v8 : IVec S_ 1 := andi main_v3 main_v7
  let main_v9 : FVec F S300 .f32 := Host.absf main_arg2
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_arg7 main_v13 main_v16
-- ==== Kernel.lean ====
abbrev S16384x3x32x32 : Shape := ⟨4, ![16384, 3, 32, 32]⟩
abbrev S300x3072 : Shape := ⟨2, ![300, 3072]⟩
abbrev S300 : Shape := ⟨1, ![300]⟩
abbrev S300x300 : Shape := ⟨2, ![300, 300]⟩
abbrev S10x300 : Shape := ⟨2, ![10, 300]⟩
abbrev S16384x3072 : Shape := ⟨2, ![16384, 3072]⟩
abbrev S_ : Shape := ⟨0, ![]⟩
abbrev S300x1 : Shape := ⟨2, ![300, 1]⟩
abbrev S3072x300 : Shape := ⟨2, ![3072, 300]⟩
abbrev S16384x300 : Shape := ⟨2, ![16384, 300]⟩
abbrev S1024x3072 : Shape := ⟨2, ![1024, 3072]⟩
abbrev S1024x300 : Shape := ⟨2, ![1024, 300]⟩
abbrev S1024 : Shape := ⟨1, ![1024]⟩
abbrev S1024x1 : Shape := ⟨2, ![1024, 1]⟩
abbrev S1x300 : Shape := ⟨2, ![1, 300]⟩
abbrev S2048x300 : Shape := ⟨2, ![2048, 300]⟩
abbrev S2048 : Shape := ⟨1, ![2048]⟩
abbrev S2048x1 : Shape := ⟨2, ![2048, 1]⟩
abbrev S300x10 : Shape := ⟨2, ![300, 10]⟩
abbrev S16384x10 : Shape := ⟨2, ![16384, 10]⟩
abbrev S2048x10 : Shape := ⟨2, ![2048, 10]⟩

abbrev nBuf : Space → Nat
  | .hbm => 126
  | .vmem => 15
  | .smem => 0
  | _ => 0

abbrev bufTy : (tb : Table) → Fin (tcTables nBuf tb) → BufTy
  | .hbm, ⟨0, _⟩ => ⟨S16384x3x32x32, .f32⟩
  | .hbm, ⟨1, _⟩ => ⟨S300x3072, .f32⟩
  | .hbm, ⟨2, _⟩ => ⟨S300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S300, .f32⟩
  | .hbm, ⟨7, _⟩ => ⟨S10x300, .f32⟩
  | .hbm, ⟨8, _⟩ => ⟨S16384x3072, .f32⟩
  | .hbm, ⟨9, _⟩ => ⟨S300x3072, .f32⟩
  | .hbm, ⟨10, _⟩ => ⟨S_, .f32⟩
  | .hbm, ⟨11, _⟩ => ⟨S300, .f32⟩
  | .hbm, ⟨12, _⟩ => ⟨S300x1, .f32⟩
  | .hbm, ⟨13, _⟩ => ⟨S300x1, .f32⟩
  | .hbm, ⟨14, _⟩ => ⟨S_, .f32⟩
  | .hbm, ⟨15, _⟩ => ⟨S300x1, .f32⟩
  | .hbm, ⟨16, _⟩ => ⟨S300x1, .f32⟩
  | .hbm, ⟨17, _⟩ => ⟨S300x3072, .f32⟩
  | .hbm, ⟨18, _⟩ => ⟨S300x3072, .f32⟩
  | .hbm, ⟨19, _⟩ => ⟨S3072x300, .f32⟩
  | .hbm, ⟨20, _⟩ => ⟨S3072x300, .bf16⟩
  | .hbm, ⟨21, _⟩ => ⟨S16384x300, .f32⟩
  | .hbm, ⟨22, _⟩ => ⟨S_, .f32⟩
  | .hbm, ⟨23, _⟩ => ⟨S300, .f32⟩
  | .hbm, ⟨24, _⟩ => ⟨S_, .f32⟩
  | .hbm, ⟨25, _⟩ => ⟨S300, .f32⟩
  | .hbm, ⟨26, _⟩ => ⟨S300, .f32⟩
  | .hbm, ⟨27, _⟩ => ⟨S_, .i32⟩
  | .hbm, ⟨28, _⟩ => ⟨S_, .f32⟩
  | .hbm, ⟨29, _⟩ => ⟨S300, .f32⟩
  | .hbm, ⟨30, _⟩ => ⟨S1x300, .f32⟩
  | .hbm, ⟨31, _⟩ => ⟨S_, .f32⟩
  | .hbm, ⟨32, _⟩ => ⟨S1x300, .f32⟩
  | .hbm, ⟨33, _⟩ => ⟨S1x300, .f32⟩
  | .hbm, ⟨34, _⟩ => ⟨S16384x300, .f32⟩
  | .hbm, ⟨35, _⟩ => ⟨S16384x300, .f32⟩
  | .hbm, ⟨36, _⟩ => ⟨S16384x300, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S300, .f32⟩
  | .hbm, ⟨42, _⟩ => ⟨S300, .f32⟩
  | .hbm, ⟨43, _⟩ => ⟨S300, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S300, .f32⟩
  | .hbm, ⟨49, _⟩ => ⟨S300, .f32⟩
  | .hbm, ⟨50, _⟩ => ⟨S1x300, .f32⟩
  | .hbm, ⟨51, _⟩ => ⟨S16384x300, .f32⟩
  | .hbm, ⟨52, _⟩ => ⟨S16384x300, .f32⟩
  | .hbm, ⟨53, _⟩ => ⟨S_, .f32⟩
  | .hbm, ⟨54, _⟩ => ⟨S300, .f32⟩
  | .hbm, ⟨55, _⟩ => ⟨S300, .f32⟩
  | .hbm, ⟨56, _⟩ => ⟨S300, .f32⟩
  | .hbm, ⟨57, _⟩ => ⟨S1x300, .f32⟩
  | .hbm, ⟨58, _⟩ => ⟨S16384x300, .f32⟩
  | .hbm, ⟨59, _⟩ => ⟨S16384x300, .f32⟩
  | .hbm, ⟨60, _⟩ => ⟨S1x300, .f32⟩
  | .hbm, ⟨61, _⟩ => ⟨S16384x300, .f32⟩
  | .hbm, ⟨62, _⟩ => ⟨S16384x300, .f32⟩
  | .hbm, ⟨63, _⟩ => ⟨S1x300, .f32⟩
  | .hbm, ⟨64, _⟩ => ⟨S16384x300, .f32⟩
  | .hbm, ⟨65, _⟩ => ⟨S16384x300, .f32⟩
  | .hbm, ⟨66, _⟩ => ⟨S300x300, .f32⟩
  | .hbm, ⟨67, _⟩ => ⟨S_, .f32⟩
  | .hbm, ⟨68, _⟩ => ⟨S300, .f32⟩
  | .hbm, ⟨69, _⟩ => ⟨S300x1, .f32⟩
  | .hbm, ⟨70, _⟩ => ⟨S300x1, .f32⟩
  | .hbm, ⟨71, _⟩ => ⟨S_, .f32⟩
  | .hbm, ⟨72, _⟩ => ⟨S300x1, .f32⟩
  | .hbm, ⟨73, _⟩ => ⟨S300x1, .f32⟩
  | .hbm, ⟨74, _⟩ => ⟨S300x300, .f32⟩
  | .hbm, ⟨75, _⟩ => ⟨S300x300, .f32⟩
  | .hbm, ⟨76, _⟩ => ⟨S300x300, .f32⟩
  | .hbm, ⟨77, _⟩ => ⟨S300x300, .bf16⟩
  | .hbm, ⟨78, _⟩ => ⟨S16384x300, .f32⟩
  | .hbm, ⟨79, _⟩ => ⟨S_, .f32⟩
  | .hbm, ⟨80, _⟩ => ⟨S300, .f32⟩
  | .hbm, ⟨81, _⟩ => ⟨S_, .f32⟩
  | .hbm, ⟨82, _⟩ => ⟨S300, .f32⟩
  | .hbm, ⟨83, _⟩ => ⟨S300, .f32⟩
  | .hbm, ⟨84, _⟩ => ⟨S_, .i32⟩
  | .hbm, ⟨85, _⟩ => ⟨S_, .f32⟩
  | .hbm, ⟨86, _⟩ => ⟨S300, .f32⟩
  | .hbm, ⟨87, _⟩ => ⟨S1x300, .f32⟩
  | .hbm, ⟨88, _⟩ => ⟨S_, .f32⟩
  | .hbm, ⟨89, _⟩ => ⟨S1x300, .f32⟩
  | .hbm, ⟨90, _⟩ => ⟨S1x300, .f32⟩
  | .hbm, ⟨91, _⟩ => ⟨S16384x300, .f32⟩
  | .hbm, ⟨92, _⟩ => ⟨S16384x300, .f32⟩
  | .hbm, ⟨93, _⟩ => ⟨S16384x300, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S300, .f32⟩
  | .hbm, ⟨99, _⟩ => ⟨S300, .f32⟩
  | .hbm, ⟨100, _⟩ => ⟨S300, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | .hbm, ⟨105, _⟩ => ⟨S300, .f32⟩
  | .hbm, ⟨106, _⟩ => ⟨S300, .f32⟩
  | .hbm, ⟨107, _⟩ => ⟨S1x300, .f32⟩
  | .hbm, ⟨108, _⟩ => ⟨S16384x300, .f32⟩
  | .hbm, ⟨109, _⟩ => ⟨S16384x300, .f32⟩
  | .hbm, ⟨110, _⟩ => ⟨S_, .f32⟩
  | .hbm, ⟨111, _⟩ => ⟨S300, .f32⟩
  | .hbm, ⟨112, _⟩ => ⟨S300, .f32⟩
  | .hbm, ⟨113, _⟩ => ⟨S300, .f32⟩
  | .hbm, ⟨114, _⟩ => ⟨S1x300, .f32⟩
  | .hbm, ⟨115, _⟩ => ⟨S16384x300, .f32⟩
  | .hbm, ⟨116, _⟩ => ⟨S16384x300, .f32⟩
  | .hbm, ⟨117, _⟩ => ⟨S1x300, .f32⟩
  | .hbm, ⟨118, _⟩ => ⟨S16384x300, .f32⟩
  | .hbm, ⟨119, _⟩ => ⟨S16384x300, .f32⟩
  | .hbm, ⟨120, _⟩ => ⟨S1x300, .f32⟩
  | .hbm, ⟨121, _⟩ => ⟨S16384x300, .f32⟩
  | .hbm, ⟨122, _⟩ => ⟨S16384x300, .f32⟩
  | .hbm, ⟨123, _⟩ => ⟨S300x10, .f32⟩
  | .hbm, ⟨124, _⟩ => ⟨S300x10, .bf16⟩
  | .hbm, ⟨125, _⟩ => ⟨S16384x10, .f32⟩
  | .local _ .vmem, ⟨0, _⟩ => ⟨S1024x3072, .f32⟩
  | .local _ .vmem, ⟨1, _⟩ => ⟨S1024x3072, .f32⟩
  | .local _ .vmem, ⟨2, _⟩ => ⟨S3072x300, .bf16⟩
  | .local _ .vmem, ⟨3, _⟩ => ⟨S1024x300, .f32⟩
  | .local _ .vmem, ⟨4, _⟩ => ⟨S1024x300, .f32⟩
  | .local _ .vmem, ⟨5, _⟩ => ⟨S2048x300, .f32⟩
  | .local _ .vmem, ⟨6, _⟩ => ⟨S2048x300, .f32⟩
  | .local _ .vmem, ⟨7, _⟩ => ⟨S300x300, .bf16⟩
  | .local _ .vmem, ⟨8, _⟩ => ⟨S2048x300, .f32⟩
  | .local _ .vmem, ⟨9, _⟩ => ⟨S2048x300, .f32⟩
  | .local _ .vmem, ⟨10, _⟩ => ⟨S2048x300, .f32⟩
  | .local _ .vmem, ⟨11, _⟩ => ⟨S2048x300, .f32⟩
  | .local _ .vmem, ⟨12, _⟩ => ⟨S300x10, .bf16⟩
  | .local _ .vmem, ⟨13, _⟩ => ⟨S2048x10, .f32⟩
  | .local _ .vmem, ⟨14, _⟩ => ⟨S2048x10, .f32⟩
  | _, _ => ⟨S16384x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_cst_2 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_cst_3 : Ref sig .tc := ⟨.hbm, 44, rfl⟩
abbrev main_call1_v12 : Ref sig .tc := ⟨.hbm, 45, rfl⟩
abbrev main_call1_cst_4 : Ref sig .tc := ⟨.hbm, 46, rfl⟩
abbrev main_call1_call0_v0 : Ref sig .tc := ⟨.hbm, 47, rfl⟩
abbrev main_call1_call0_v1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_2 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_call2_v2 : Ref sig .tc := ⟨.hbm, 69, rfl⟩
abbrev main_v28 : Ref sig .tc := ⟨.hbm, 70, rfl⟩
abbrev main_cst_3 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_4 : Ref sig .tc := ⟨.hbm, 79, rfl⟩
abbrev main_v36 : Ref sig .tc := ⟨.hbm, 80, rfl⟩
abbrev main_cst_5 : Ref sig .tc := ⟨.hbm, 81, rfl⟩
abbrev main_v37 : Ref sig .tc := ⟨.hbm, 82, rfl⟩
abbrev main_v38 : Ref sig .tc := ⟨.hbm, 83, rfl⟩
abbrev main_c_6 : Ref sig .tc := ⟨.hbm, 84, rfl⟩
abbrev main_call3_cst : Ref sig .tc := ⟨.hbm, 85, rfl⟩
abbrev main_call3_v0 : Ref sig .tc := ⟨.hbm, 86, rfl⟩
abbrev main_call3_v1 : Ref sig .tc := ⟨.hbm, 87, rfl⟩
abbrev main_call3_cst_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_cst_1 : Ref sig .tc := ⟨.hbm, 95, rfl⟩
abbrev main_call3_v8 : Ref sig .tc := ⟨.hbm, 96, rfl⟩
abbrev main_call3_cst_2 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_cst_3 : Ref sig .tc := ⟨.hbm, 101, rfl⟩
abbrev main_call3_v12 : Ref sig .tc := ⟨.hbm, 102, rfl⟩
abbrev main_call3_cst_4 : Ref sig .tc := ⟨.hbm, 103, rfl⟩
abbrev main_call3_call0_v0 : Ref sig .tc := ⟨.hbm, 104, rfl⟩
abbrev main_call3_call0_v1 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_7 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x300 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x10 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S16384x3x32x32_S16384x3072 : S16384x3x32x32.ShapeCasts S16384x3072
  reducesTo_S300x3072_S300_d1 : S300x3072.ReducesTo [1] S300
  h_S_ : 0 < S_.numel
  bcast_S300_S300x1_0 : S300.BroadcastsInDim S300x1 (![0] : Fin 1 → Fin S300x1.rank)
  bcast_S_S300x1 : S_.BroadcastsInDim S300x1 (![] : Fin 0 → Fin S300x1.rank)
  bcast_S300x1_S300x3072_0_1 : S300x1.BroadcastsInDim S300x3072 (![0, 1] : Fin 2 → Fin S300x3072.rank)
  transposes_S300x3072_S3072x300_1_0 : S300x3072.Transposes [1, 0] S3072x300
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  reduces_S1024x3072_S1024 : S1024x3072.Reduces [1] S1024
  shapeCasts_S1024_S1024x1 : S1024.ShapeCasts S1024x1
  broadcasts_S1024x1_S1024x3072 : S1024x1.Broadcasts S1024x3072
  inb_S3072x300_S3072x300_0_0 : ∀ a, (![0, 0] : Fin 2 → Nat) a + S3072x300.size a ≤ S3072x300.size a
  h_S3072x300 : 0 < S3072x300.numel
  shapeCasts_S3072x300_S3072x300 : S3072x300.ShapeCasts S3072x300
  inb_S1024x300_S1024x300_0_0 : ∀ a, (![0, 0] : Fin 2 → Nat) a + S1024x300.size a ≤ S1024x300.size a
  h_S1024x300 : 0 < S1024x300.numel
  reducesTo_S16384x300_S300_d0 : S16384x300.ReducesTo [0] S300
  bcast_S_S300 : S_.BroadcastsInDim S300 (![] : Fin 0 → Fin S300.rank)
  bcast_S300_S1x300_1 : S300.BroadcastsInDim S1x300 (![1] : Fin 1 → Fin S1x300.rank)
  bcast_S_S1x300 : S_.BroadcastsInDim S1x300 (![] : Fin 0 → Fin S1x300.rank)
  bcast_S1x300_S16384x300_0_1 : S1x300.BroadcastsInDim S16384x300 (![0, 1] : Fin 2 → Fin S16384x300.rank)
  reducesTo_S300x300_S300_d1 : S300x300.ReducesTo [1] S300
  bcast_S300x1_S300x300_0_1 : S300x1.BroadcastsInDim S300x300 (![0, 1] : Fin 2 → Fin S300x300.rank)
  transposes_S300x300_S300x300_1_0 : S300x300.Transposes [1, 0] S300x300
  inb_S2048x300_S2048x300_0_0 : ∀ a, (![0, 0] : Fin 2 → Nat) a + S2048x300.size a ≤ S2048x300.size a
  h_S2048x300 : 0 < S2048x300.numel
  shapeCasts_S2048x300_S2048x300 : S2048x300.ShapeCasts S2048x300
  reduces_S2048x300_S2048 : S2048x300.Reduces [1] S2048
  shapeCasts_S2048_S2048x1 : S2048.ShapeCasts S2048x1
  broadcasts_S2048x1_S2048x300 : S2048x1.Broadcasts S2048x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  transposes_S10x300_S300x10_1_0 : S10x300.Transposes [1, 0] S300x10
  inb_S300x10_S300x10_0_0 : ∀ a, (![0, 0] : Fin 2 → Nat) a + S300x10.size a ≤ S300x10.size a
  h_S300x10 : 0 < S300x10.numel
  shapeCasts_S300x10_S300x10 : S300x10.ShapeCasts S300x10
  inb_S2048x10_S2048x10_0_0 : ∀ a, (![0, 0] : Fin 2 → Nat) a + S2048x10.size a ≤ S2048x10.size a
  h_S2048x10 : 0 < S2048x10.numel
  dot_S1024x3072_S3072x300_S1024x300_1_0_0_1_n_n_wf : DotDims.WF S1024x3072 S3072x300 S1024x300 [1] [0] [0] [1] [] []
  dot_S2048x300_S300x300_S2048x300_1_0_0_1_n_n_wf : DotDims.WF S2048x300 S300x300 S2048x300 [1] [0] [0] [1] [] []
  dot_S2048x300_S300x10_S2048x10_1_0_0_1_n_n_wf : DotDims.WF S2048x300 S300x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S16384x3072.size a
  hwx0_0 : ∀ i : grid0.Coords, EltTy.bits .f32 = 32 ∨ (Rect.block (s := S16384x3072) S1024x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x300.size a ≤ S3072x300.size a
  hwx0_1 : ∀ i : grid0.Coords, EltTy.bits .bf16 = 32 ∨ (Rect.block (s := S3072x300) S3072x300.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x300.size a ≤ S16384x300.size a
  hwx0_2 : ∀ i : grid0.Coords, EltTy.bits .f32 = 32 ∨ (Rect.block (s := S16384x300) S1024x300.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x300.size a ≤ S16384x300.size a
  hwx1_0 : ∀ i : grid1.Coords, EltTy.bits .f32 = 32 ∨ (Rect.block (s := S16384x300) S2048x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x300.size a ≤ S300x300.size a
  hwx1_1 : ∀ i : grid1.Coords, EltTy.bits .bf16 = 32 ∨ (Rect.block (s := S300x300) S300x300.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x300.size a ≤ S16384x300.size a
  hwx1_2 : ∀ i : grid1.Coords, EltTy.bits .f32 = 32 ∨ (Rect.block (s := S16384x300) S2048x300.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x300.size a ≤ S16384x300.size a
  hwx2_0 : ∀ i : grid2.Coords, EltTy.bits .f32 = 32 ∨ (Rect.block (s := S16384x300) S2048x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x10.size a ≤ S300x10.size a
  hwx2_1 : ∀ i : grid2.Coords, EltTy.bits .bf16 = 32 ∨ (Rect.block (s := S300x10) S300x10.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x10.size a ≤ S16384x10.size a
  hwx2_2 : ∀ i : grid2.Coords, EltTy.bits .f32 = 32 ∨ (Rect.block (s := S16384x10) S2048x10.size (cc2_transform_2 i) (hinb2_2 i)).WholeWords (EltTy.packing .f32)

variable [Facts₀]

def dot_S1024x3072_S3072x300_S1024x300_1_0_0_1_n_n : DotDims S1024x3072 S3072x300 S1024x300 where
  lhsContracting := [1]
  rhsContracting := [0]
  lhsNonContracting := [0]
  rhsNonContracting := [1]
  lhsBatch := []
  rhsBatch := []
  wf := dot_S1024x3072_S3072x300_S1024x300_1_0_0_1_n_n_wf
def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf
def dot_S2048x300_S300x10_S2048x10_1_0_0_1_n_n : DotDims S2048x300 S300x10 S2048x10 where
  lhsContracting := [1]
  rhsContracting := [0]
  lhsNonContracting := [0]
  rhsNonContracting := [1]
  lhsBatch := []
  rhsBatch := []
  wf := dot_S2048x300_S300x10_S2048x10_1_0_0_1_n_n_wf

abbrev win0_0 : Pipeline.Window sig grid0 :=
  Pipeline.Window.ofSpec (Memref.whole main_v0) S1024x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3072x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2048x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S300x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2048x300.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S2048x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S300x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S2048x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x3x32x32 : Shape := ⟨4, ![16384, 3, 32, 32]⟩
abbrev S300x3072 : Shape := ⟨2, ![300, 3072]⟩
abbrev S300 : Shape := ⟨1, ![300]⟩
abbrev S300x300 : Shape := ⟨2, ![300, 300]⟩
abbrev S10x300 : Shape := ⟨2, ![10, 300]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S300x1 : Shape := ⟨2, ![300, 1]⟩
abbrev S16384x300 : Shape := ⟨2, ![16384, 300]⟩
abbrev S1x300 : Shape := ⟨2, ![1, 300]⟩
abbrev S16384x10 : Shape := ⟨2, ![16384, 10]⟩

abbrev nBuf : Space → Nat
  | .hbm => 156
  | .vmem => 0
  | .smem => 0
  | _ => 0

abbrev hbmTy0_0 (i : Nat) : BufTy := match i % 128 with
  | 0 => ⟨S16384x3x32x32, .f32⟩
  | 1 => ⟨S300x3072, .f32⟩
  | 2 => ⟨S300, .f32⟩
  | 3 => ⟨S300, .f32⟩
  | 4 => ⟨S300x300, .f32⟩
  | 5 => ⟨S300, .f32⟩
  | 6 => ⟨S300, .f32⟩
  | 7 => ⟨S10x300, .f32⟩
  | 8 => ⟨S16384x3072, .f32⟩
  | 9 => ⟨S16384x3072, .f32⟩
  | 10 => ⟨S_, .f32⟩
  | 11 => ⟨S16384, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x3072, .f32⟩
  | 18 => ⟨S16384x3072, .f32⟩
  | 19 => ⟨S300x3072, .f32⟩
  | 20 => ⟨S_, .f32⟩
  | 21 => ⟨S300, .f32⟩
  | 22 => ⟨S300x1, .f32⟩
  | 23 => ⟨S300x1, .f32⟩
  | 24 => ⟨S_, .f32⟩
  | 25 => ⟨S300x1, .f32⟩
  | 26 => ⟨S300x1, .f32⟩
  | 27 => ⟨S300x3072, .f32⟩
  | 28 => ⟨S300x3072, .f32⟩
  | 29 => ⟨S16384x300, .f32⟩
  | 30 => ⟨S_, .f32⟩
  | 31 => ⟨S_, .f32⟩
  | 32 => ⟨S_, .f32⟩
  | 33 => ⟨S16384x300, .f32⟩
  | 34 => ⟨S16384x300, .f32⟩
  | 35 => ⟨S_, .f32⟩
  | 36 => ⟨S16384x300, .f32⟩
  | 37 => ⟨S16384x300, .f32⟩
  | 38 => ⟨S_, .f32⟩
  | 39 => ⟨S300, .f32⟩
  | 40 => ⟨S_, .f32⟩
  | 41 => ⟨S300, .f32⟩
  | 42 => ⟨S300, .f32⟩
  | 43 => ⟨S_, .i32⟩
  | 44 => ⟨S_, .f32⟩
  | 45 => ⟨S300, .f32⟩
  | 46 => ⟨S1x300, .f32⟩
  | 47 => ⟨S_, .f32⟩
  | 48 => ⟨S1x300, .f32⟩
  | 49 => ⟨S1x300, .f32⟩
  | 50 => ⟨S16384x300, .f32⟩
  | 51 => ⟨S16384x300, .f32⟩
  | 52 => ⟨S16384x300, .f32⟩
  | 53 => ⟨S_, .f32⟩
  | 54 => ⟨S_, .f32⟩
  | 55 => ⟨S_, .f32⟩
  | 56 => ⟨S_, .f32⟩
  | 57 => ⟨S300, .f32⟩
  | 58 => ⟨S300, .f32⟩
  | 59 => ⟨S300, .f32⟩
  | 60 => ⟨S_, .f32⟩
  | 61 => ⟨S_, .i1⟩
  | 62 => ⟨S_, .f32⟩
  | 63 => ⟨S_, .f32⟩
  | 64 => ⟨S300, .f32⟩
  | 65 => ⟨S300, .f32⟩
  | 66 => ⟨S1x300, .f32⟩
  | 67 => ⟨S16384x300, .f32⟩
  | 68 => ⟨S16384x300, .f32⟩
  | 69 => ⟨S_, .f32⟩
  | 70 => ⟨S300, .f32⟩
  | 71 => ⟨S300, .f32⟩
  | 72 => ⟨S300, .f32⟩
  | 73 => ⟨S1x300, .f32⟩
  | 74 => ⟨S16384x300, .f32⟩
  | 75 => ⟨S16384x300, .f32⟩
  | 76 => ⟨S1x300, .f32⟩
  | 77 => ⟨S16384x300, .f32⟩
  | 78 => ⟨S16384x300, .f32⟩
  | 79 => ⟨S1x300, .f32⟩
  | 80 => ⟨S16384x300, .f32⟩
  | 81 => ⟨S16384x300, .f32⟩
  | 82 => ⟨S16384x300, .f32⟩
  | 83 => ⟨S_, .f32⟩
  | 84 => ⟨S16384, .f32⟩
  | 85 => ⟨S16384x1, .f32⟩
  | 86 => ⟨S16384x1, .f32⟩
  | 87 => ⟨S_, .f32⟩
  | 88 => ⟨S16384x1, .f32⟩
  | 89 => ⟨S16384x1, .f32⟩
  | 90 => ⟨S16384x300, .f32⟩
  | 91 => ⟨S16384x300, .f32⟩
  | 92 => ⟨S300x300, .f32⟩
  | 93 => ⟨S_, .f32⟩
  | 94 => ⟨S300, .f32⟩
  | 95 => ⟨S300x1, .f32⟩
  | 96 => ⟨S300x1, .f32⟩
  | 97 => ⟨S_, .f32⟩
  | 98 => ⟨S300x1, .f32⟩
  | 99 => ⟨S300x1, .f32⟩
  | 100 => ⟨S300x300, .f32⟩
  | 101 => ⟨S300x300, .f32⟩
  | 102 => ⟨S16384x300, .f32⟩
  | 103 => ⟨S_, .f32⟩
  | 104 => ⟨S_, .f32⟩
  | 105 => ⟨S_, .f32⟩
  | 106 => ⟨S16384x300, .f32⟩
  | 107 => ⟨S16384x300, .f32⟩
  | 108 => ⟨S_, .f32⟩
  | 109 => ⟨S16384x300, .f32⟩
  | 110 => ⟨S16384x300, .f32⟩
  | 111 => ⟨S_, .f32⟩
  | 112 => ⟨S300, .f32⟩
  | 113 => ⟨S_, .f32⟩
  | 114 => ⟨S300, .f32⟩
  | 115 => ⟨S300, .f32⟩
  | 116 => ⟨S_, .i32⟩
  | 117 => ⟨S_, .f32⟩
  | 118 => ⟨S300, .f32⟩
  | 119 => ⟨S1x300, .f32⟩
  | 120 => ⟨S_, .f32⟩
  | 121 => ⟨S1x300, .f32⟩
  | 122 => ⟨S1x300, .f32⟩
  | 123 => ⟨S16384x300, .f32⟩
  | 124 => ⟨S16384x300, .f32⟩
  | 125 => ⟨S16384x300, .f32⟩
  | 126 => ⟨S_, .f32⟩
  | 127 => ⟨S_, .f32⟩
  | _ => ⟨S16384x3x32x32, .f32⟩

abbrev hbmTy0_1 (i : Nat) : BufTy := match i % 128 with
  | 0 => ⟨S_, .f32⟩
  | 1 => ⟨S_, .f32⟩
  | 2 => ⟨S300, .f32⟩
  | 3 => ⟨S300, .f32⟩
  | 4 => ⟨S300, .f32⟩
  | 5 => ⟨S_, .f32⟩
  | 6 => ⟨S_, .i1⟩
  | 7 => ⟨S_, .f32⟩
  | 8 => ⟨S_, .f32⟩
  | 9 => ⟨S300, .f32⟩
  | 10 => ⟨S300, .f32⟩
  | 11 => ⟨S1x300, .f32⟩
  | 12 => ⟨S16384x300, .f32⟩
  | 13 => ⟨S16384x300, .f32⟩
  | 14 => ⟨S_, .f32⟩
  | 15 => ⟨S300, .f32⟩
  | 16 => ⟨S300, .f32⟩
  | 17 => ⟨S300, .f32⟩
  | 18 => ⟨S1x300, .f32⟩
  | 19 => ⟨S16384x300, .f32⟩
  | 20 => ⟨S16384x300, .f32⟩
  | 21 => ⟨S1x300, .f32⟩
  | 22 => ⟨S16384x300, .f32⟩
  | 23 => ⟨S16384x300, .f32⟩
  | 24 => ⟨S1x300, .f32⟩
  | 25 => ⟨S16384x300, .f32⟩
  | 26 => ⟨S16384x300, .f32⟩
  | 27 => ⟨S16384x10, .f32⟩
  | _ => ⟨S16384x3x32x32, .f32⟩

abbrev hbmTy (i : Nat) : BufTy := match i / 128 with
  | 0 => hbmTy0_0 i
  | 1 => hbmTy0_1 i
  | _ => ⟨S16384x3x32x32, .f32⟩

abbrev bufTy : (tb : Table) → Fin (tcTables nBuf tb) → BufTy
  | .hbm, ⟨i, _⟩ => hbmTy i
  | _, _ => ⟨S16384x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_cst_2 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_cst_4 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_call3_cst : Ref sig .tc := ⟨.hbm, 44, rfl⟩
abbrev main_call3_v0 : Ref sig .tc := ⟨.hbm, 45, rfl⟩
abbrev main_call3_v1 : Ref sig .tc := ⟨.hbm, 46, rfl⟩
abbrev main_call3_cst_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_cst_1 : Ref sig .tc := ⟨.hbm, 54, rfl⟩
abbrev main_call3_v8 : Ref sig .tc := ⟨.hbm, 55, rfl⟩
abbrev main_call3_cst_2 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_cst_3 : Ref sig .tc := ⟨.hbm, 60, rfl⟩
abbrev main_call3_v12 : Ref sig .tc := ⟨.hbm, 61, rfl⟩
abbrev main_call3_cst_4 : Ref sig .tc := ⟨.hbm, 62, rfl⟩
abbrev main_call3_call0_v0 : Ref sig .tc := ⟨.hbm, 63, rfl⟩
abbrev main_call3_call0_v1 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_cst_5 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_call4_v0 : Ref sig .tc := ⟨.hbm, 82, rfl⟩
abbrev main_call4_cst : Ref sig .tc := ⟨.hbm, 83, rfl⟩
abbrev main_call4_v1 : Ref sig .tc := ⟨.hbm, 84, rfl⟩
abbrev main_call4_v2 : Ref sig .tc := ⟨.hbm, 85, rfl⟩
abbrev main_v32 : Ref sig .tc := ⟨.hbm, 86, rfl⟩
abbrev main_cst_6 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_call5_v0 : Ref sig .tc := ⟨.hbm, 92, rfl⟩
abbrev main_call5_cst : Ref sig .tc := ⟨.hbm, 93, rfl⟩
abbrev main_call5_v1 : Ref sig .tc := ⟨.hbm, 94, rfl⟩
abbrev main_call5_v2 : Ref sig .tc := ⟨.hbm, 95, rfl⟩
abbrev main_v37 : Ref sig .tc := ⟨.hbm, 96, rfl⟩
abbrev main_cst_7 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_8 : Ref sig .tc := ⟨.hbm, 103, rfl⟩
abbrev main_cst_9 : Ref sig .tc := ⟨.hbm, 104, rfl⟩
abbrev main_call6_v0 : Ref sig .tc := ⟨.hbm, 105, rfl⟩
abbrev main_call6_v1 : Ref sig .tc := ⟨.hbm, 106, rfl⟩
abbrev main_call6_v2 : Ref sig .tc := ⟨.hbm, 107, rfl⟩
abbrev main_call6_v3 : Ref sig .tc := ⟨.hbm, 108, rfl⟩
abbrev main_call6_v4 : Ref sig .tc := ⟨.hbm, 109, rfl⟩
abbrev main_v43 : Ref sig .tc := ⟨.hbm, 110, rfl⟩
abbrev main_cst_10 : Ref sig .tc := ⟨.hbm, 111, rfl⟩
abbrev main_v44 : Ref sig .tc := ⟨.hbm, 112, rfl⟩
abbrev main_cst_11 : Ref sig .tc := ⟨.hbm, 113, rfl⟩
abbrev main_v45 : Ref sig .tc := ⟨.hbm, 114, rfl⟩
abbrev main_v46 : Ref sig .tc := ⟨.hbm, 115, rfl⟩
abbrev main_c_12 : Ref sig .tc := ⟨.hbm, 116, rfl⟩
abbrev main_call7_cst : Ref sig .tc := ⟨.hbm, 117, rfl⟩
abbrev main_call7_v0 : Ref sig .tc := ⟨.hbm, 118, rfl⟩
abbrev main_call7_v1 : Ref sig .tc := ⟨.hbm, 119, rfl⟩
abbrev main_call7_cst_0 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_call7_v5 : Ref sig .tc := ⟨.hbm, 124, rfl⟩
abbrev main_call7_v6 : Ref sig .tc := ⟨.hbm, 125, rfl⟩
abbrev main_call7_v7 : Ref sig .tc := ⟨.hbm, 126, rfl⟩
abbrev main_call7_cst_1 : Ref sig .tc := ⟨.hbm, 127, rfl⟩
abbrev main_call7_v8 : Ref sig .tc := ⟨.hbm, 128, rfl⟩
abbrev main_call7_cst_2 : Ref sig .tc := ⟨.hbm, 129, rfl⟩
abbrev main_call7_v9 : Ref sig .tc := ⟨.hbm, 130, rfl⟩
abbrev main_call7_v10 : Ref sig .tc := ⟨.hbm, 131, rfl⟩
abbrev main_call7_v11 : Ref sig .tc := ⟨.hbm, 132, rfl⟩
abbrev main_call7_cst_3 : Ref sig .tc := ⟨.hbm, 133, rfl⟩
abbrev main_call7_v12 : Ref sig .tc := ⟨.hbm, 134, rfl⟩
abbrev main_call7_cst_4 : Ref sig .tc := ⟨.hbm, 135, rfl⟩
abbrev main_call7_call0_v0 : Ref sig .tc := ⟨.hbm, 136, rfl⟩
abbrev main_call7_call0_v1 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_cst_13 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩

abbrev nD : Nat := 1
abbrev τ : Topo := Topo.v7x

variable {F : FTy → Type} [FloatOps F]

class Facts₀ : Prop where
  shapeCasts_S16384x3x32x32_S16384x3072 : S16384x3x32x32.ShapeCasts S16384x3072
  reducesTo_S16384x3072_S16384_d1 : S16384x3072.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x3072_0_1 : S16384x1.BroadcastsInDim S16384x3072 (![0, 1] : Fin 2 → Fin S16384x3072.rank)
  reducesTo_S300x3072_S300_d1 : S300x3072.ReducesTo [1] S300
  bcast_S300_S300x1_0 : S300.BroadcastsInDim S300x1 (![0] : Fin 1 → Fin S300x1.rank)
  bcast_S_S300x1 : S_.BroadcastsInDim S300x1 (![] : Fin 0 → Fin S300x1.rank)
  bcast_S300x1_S300x3072_0_1 : S300x1.BroadcastsInDim S300x3072 (![0, 1] : Fin 2 → Fin S300x3072.rank)
  bcast_S_S16384x300 : S_.BroadcastsInDim S16384x300 (![] : Fin 0 → Fin S16384x300.rank)
  reducesTo_S16384x300_S300_d0 : S16384x300.ReducesTo [0] S300
  bcast_S_S300 : S_.BroadcastsInDim S300 (![] : Fin 0 → Fin S300.rank)
  bcast_S300_S1x300_1 : S300.BroadcastsInDim S1x300 (![1] : Fin 1 → Fin S1x300.rank)
  bcast_S_S1x300 : S_.BroadcastsInDim S1x300 (![] : Fin 0 → Fin S1x300.rank)
  bcast_S1x300_S16384x300_0_1 : S1x300.BroadcastsInDim S16384x300 (![0, 1] : Fin 2 → Fin S16384x300.rank)
  reducesTo_S16384x300_S16384_d1 : S16384x300.ReducesTo [1] S16384
  bcast_S16384x1_S16384x300_0_1 : S16384x1.BroadcastsInDim S16384x300 (![0, 1] : Fin 2 → Fin S16384x300.rank)
  reducesTo_S300x300_S300_d1 : S300x300.ReducesTo [1] S300
  bcast_S300x1_S300x300_0_1 : S300x1.BroadcastsInDim S300x300 (![0, 1] : Fin 2 → Fin S300x300.rank)
  dot_S16384x3072_S300x3072_S16384x300_1_1_0_0_n_n_wf : DotDims.WF S16384x3072 S300x3072 S16384x300 [1] [1] [0] [0] [] []
  dot_S16384x300_S300x300_S16384x300_1_1_0_0_n_n_wf : DotDims.WF S16384x300 S300x300 S16384x300 [1] [1] [0] [0] [] []
  dot_S16384x300_S10x300_S16384x10_1_1_0_0_n_n_wf : DotDims.WF S16384x300 S10x300 S16384x10 [1] [1] [0] [0] [] []

variable [Facts₀]

def dot_S16384x3072_S300x3072_S16384x300_1_1_0_0_n_n : DotDims S16384x3072 S300x3072 S16384x300 where
  lhsContracting := [1]
  rhsContracting := [1]
  lhsNonContracting := [0]
  rhsNonContracting := [0]
  lhsBatch := []
  rhsBatch := []
  wf := dot_S16384x3072_S300x3072_S16384x300_1_1_0_0_n_n_wf
def dot_S16384x300_S300x300_S16384x300_1_1_0_0_n_n : DotDims S16384x300 S300x300 S16384x300 where
  lhsContracting := [1]
  rhsContracting := [1]
  lhsNonContracting := [0]
  rhsNonContracting := [0]
  lhsBatch := []
  rhsBatch := []
  wf := dot_S16384x300_S300x300_S16384x300_1_1_0_0_n_n_wf
def dot_S16384x300_S10x300_S16384x10_1_1_0_0_n_n : DotDims S16384x300 S10x300 S16384x10 where
  lhsContracting := [1]
  rhsContracting := [1]
  lhsNonContracting := [0]
  rhsNonContracting := [0]
  lhsBatch := []
  rhsBatch := []
  wf := dot_S16384x300_S10x300_S16384x10_1_1_0_0_n_n_wf

class Facts : Prop extends Facts₀ where

variable [Facts]
-- ==== Proof.Glue.lean ====
/-
  The host-side arithmetic that the kernel's program and the reference apply in exactly the same way, written once.

  * `flatten x`: each 3×32×32 image read as one row of 3072 numbers (a reshape).
  * `unitWeights W`: each weight row divided by its Euclidean norm plus the shared constant — `W / (√(∑ W²) + ε)`,
    the sum along the row, the norm broadcast back along it.
  * `batchNorm x g b`: normalisation over the batch axis. With `μ` the column mean (`∑ / 16384`) and `σ²` the
    column variance (the mean of `(x - μ)²`, divided by `16384 - 0` and guarded by "is that count positive"),
    the result is `(x - μ) · rsqrt(σ² + 1e-5) · g + b`, each column statistic broadcast back over the batch.

  Both are compositions of the operations the two programs print, over literal shapes. The equivalence proof never
  looks inside them: it only needs that both programs apply THIS function to equal arguments.
-/
import Idealize.ShloMosaic.PureOps.Ideal

noncomputable section

namespace Cert.Glue

open Idealize.ShloMosaic

variable {F : FTy → Type} [FloatOps F]

abbrev S_ : Shape := ⟨0, ![]⟩
abbrev S300 : Shape := ⟨1, ![300]⟩
abbrev S300x1 : Shape := ⟨2, ![300, 1]⟩
abbrev S1x300 : Shape := ⟨2, ![1, 300]⟩
abbrev S300x3072 : Shape := ⟨2, ![300, 3072]⟩
abbrev S300x300 : Shape := ⟨2, ![300, 300]⟩
abbrev S16384x300 : Shape := ⟨2, ![16384, 300]⟩
abbrev S16384x3x32x32 : Shape := ⟨4, ![16384, 3, 32, 32]⟩
abbrev S16384x3072 : Shape := ⟨2, ![16384, 3072]⟩

theorem h_S_ : 0 < S_.numel := by decide
theorem flat_img : S16384x3x32x32.ShapeCasts S16384x3072 := by decide
theorem red_w1 : S300x3072.ReducesTo [1] S300 := by decide
theorem red_w2 : S300x300.ReducesTo [1] S300 := by decide
theorem col_300 : S300.BroadcastsInDim S300x1 (![0] : Fin 1 → Fin S300x1.rank) := by decide
theorem splat_300x1 : S_.BroadcastsInDim S300x1 (![] : Fin 0 → Fin S300x1.rank) := by decide
theorem along_w1 : S300x1.BroadcastsInDim S300x3072 (![0, 1] : Fin 2 → Fin S300x3072.rank) := by decide
theorem along_w2 : S300x1.BroadcastsInDim S300x300 (![0, 1] : Fin 2 → Fin S300x300.rank) := by decide
theorem red_batch : S16384x300.ReducesTo [0] S300 := by decide
theorem splat_300 : S_.BroadcastsInDim S300 (![] : Fin 0 → Fin S300.rank) := by decide
theorem row_300 : S300.BroadcastsInDim S1x300 (![1] : Fin 1 → Fin S1x300.rank) := by decide
theorem splat_1x300 : S_.BroadcastsInDim S1x300 (![] : Fin 0 → Fin S1x300.rank) := by decide
theorem over_batch : S1x300.BroadcastsInDim S16384x300 (![0, 1] : Fin 2 → Fin S16384x300.rank) := by decide

/-- Each image laid out as one row of 3072 numbers, in row-major order. -/
def flatten (x : FVec F S16384x3x32x32 .f32) : FVec F S16384x3072 .f32 :=
  shapeCast S16384x3072 x flat_img

/-- The rows of the first layer's weights, each divided by its norm plus `ε`. -/
def unitWeights1 (W : FVec F S300x3072 .f32) : FVec F S300x3072 .f32 :=
  Host.divf W (broadcastInDim S300x3072 ![0, 1] along_w1
    (addf (Host.sqrt (broadcastInDim S300x1 ![0] col_300
        (Host.reduceAdd (mulf W W) (constant S_ .f32 0x00000000#32) red_w1 h_S_)))
      (broadcastInDim S300x1 ![] splat_300x1 (constant S_ .f32 0x2B8CBCCC#32))))

/-- The rows of the second layer's weights, each divided by its norm plus `ε`. -/
def unitWeights2 (W : FVec F S300x300 .f32) : FVec F S300x300 .f32 :=
  Host.divf W (broadcastInDim S300x300 ![0, 1] along_w2
    (addf (Host.sqrt (broadcastInDim S300x1 ![0] col_300
        (Host.reduceAdd (mulf W W) (constant S_ .f32 0x00000000#32) red_w2 h_S_)))
      (broadcastInDim S300x1 ![] splat_300x1 (constant S_ .f32 0x2B8CBCCC#32))))

/-- The column means: the sum over the batch divided by the batch size. -/
def colMean (x : FVec F S16384x300 .f32) : FVec F S300 .f32 :=
  Host.divf (Host.reduceAdd x (constant S_ .f32 0x00000000#32) red_batch h_S_)
    (broadcastInDim S300 ![] splat_300 (constant S_ .f32 0x46800000#32))

/-- The batch size less the correction `0`, as a float: the count the variance divides by. -/
def count : FVec F S_ .f32 :=
  subf (constant S_ .f32 0x46800000#32) (sitofp .f32 (constantI S_ 32 0#32))

/-- The column variances: the mean of the squared deviations from the column mean, where the count is positive. -/
def colVar (x : FVec F S16384x300 .f32) : FVec F S300 .f32 :=
  select (broadcastInDim S300 ![] splat_300 (cmpf .ogt (count (F := F)) (constant S_ .f32 0x00000000#32)))
    (Host.divf
      (Host.reduceAdd
        (mulf
          (subf x (broadcastInDim S16384x300 ![0, 1] over_batch
            (Host.divf (broadcastInDim S1x300 ![1] row_300 (Host.reduceAdd x (constant S_ .f32 0x00000000#32) red_batch h_S_))
              (broadcastInDim S1x300 ![] splat_1x300 (constant S_ .f32 0x46800000#32)))))
          (subf x (broadcastInDim S16384x300 ![0, 1] over_batch
            (Host.divf (broadcastInDim S1x300 ![1] row_300 (Host.reduceAdd x (constant S_ .f32 0x00000000#32) red_batch h_S_))
              (broadcastInDim S1x300 ![] splat_1x300 (constant S_ .f32 0x46800000#32))))))
        (constant S_ .f32 0x00000000#32) red_batch h_S_)
      (broadcastInDim S300 ![] splat_300 (count (F := F))))
    (broadcastInDim S300 ![] splat_300 (id (constant S_ .f32 0x7FC00000#32)))

/-- A column statistic broadcast back over the batch. -/
def overBatch (v : FVec F S300 .f32) : FVec F S16384x300 .f32 :=
  broadcastInDim S16384x300 ![0, 1] over_batch (broadcastInDim S1x300 ![1] row_300 v)

/-- Batch normalisation: `(x - μ) · rsqrt(σ² + 1e-5) · g + b`. -/
def batchNorm (x : FVec F S16384x300 .f32) (g b : FVec F S300 .f32) : FVec F S16384x300 .f32 :=
  addf
    (mulf
      (mulf (subf x (overBatch (colMean x)))
        (overBatch (Host.rsqrt (addf (colVar x) (broadcastInDim S300 ![] splat_300 (constant S_ .f32 0x3727C5AC#32))))))
      (overBatch g))
    (overBatch b)

end Cert.Glue

end
-- ==== Proof.KernelHost.lean ====
/-
  The kernel's program between its three pipelined regions: what each host stretch leaves in the arrays the next
  region reads, as the shared glue functions of what the stretch found.

  Before region 0 the images are flattened and the first layer's weight rows are scaled to unit length, transposed
  and narrowed to bf16 (a change of format: the identity on the extended reals). Between regions the previous
  region's output goes through the batch normalisation and the next layer's weights are prepared the same way;
  before the last region the class weights are only transposed and narrowed. No stretch and no region writes an
  argument array, so an argument read at any boundary is the launch contents.
  Each stretch is read from a GENERIC valuation `V`; the boundaries' contents are then instances.
-/
import proofs.«121544_j45629732553070_1_alg».proof.Proof.Gen.KernelIdeal.Frame
import proofs.«121544_j45629732553070_1_alg».proof.Proof.Glue
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-! ## The stretch before region 0 -/

/-- The flattened images. -/
theorem before0_images (V : Valuation τ sig (Elt F)) :
    after hostOps0_2 (after hostOps0_1 (after hostOps0 V)) (Proc.devRef .tc main_v0) = Glue.flatten (V (Proc.devRef .tc main_arg0)) := by
  dsimp only [hostOps0, hostOps0_1, hostOps0_2]; after_results_simp; rfl

/-- The first layer's unit-length weight rows, transposed, in bf16. -/
theorem before0_weights (V : Valuation τ sig (Elt F)) :
    after hostOps0_2 (after hostOps0_1 (after hostOps0 V)) (Proc.devRef .tc main_v7)
      = truncf .bf16 (transpose S3072x300 [1, 0] (Glue.unitWeights1 (V (Proc.devRef .tc main_arg1))) Facts₀.transposes_S300x3072_S3072x300_1_0) Facts₀.bitsLt_bf16_f32 := by
  dsimp only [hostOps0, hostOps0_1, hostOps0_2]; after_results_simp; rfl

theorem before0_arg2 (V : Valuation τ sig (Elt F)) :
    after hostOps0_2 (after hostOps0_1 (after hostOps0 V)) (Proc.devRef .tc main_arg2) = V (Proc.devRef .tc main_arg2) := by
  dsimp only [hostOps0, hostOps0_1, hostOps0_2]; after_results_simp

theorem before0_arg3 (V : Valuation τ sig (Elt F)) :
    after hostOps0_2 (after hostOps0_1 (after hostOps0 V)) (Proc.devRef .tc main_arg3) = V (Proc.devRef .tc main_arg3) := by
  dsimp only [hostOps0, hostOps0_1, hostOps0_2]; after_results_simp

theorem before0_arg4 (V : Valuation τ sig (Elt F)) :
    after hostOps0_2 (after hostOps0_1 (after hostOps0 V)) (Proc.devRef .tc main_arg4) = V (Proc.devRef .tc main_arg4) := by
  dsimp only [hostOps0, hostOps0_1, hostOps0_2]; after_results_simp

theorem before0_arg5 (V : Valuation τ sig (Elt F)) :
    after hostOps0_2 (after hostOps0_1 (after hostOps0 V)) (Proc.devRef .tc main_arg5) = V (Proc.devRef .tc main_arg5) := by
  dsimp only [hostOps0, hostOps0_1, hostOps0_2]; after_results_simp

theorem before0_arg6 (V : Valuation τ sig (Elt F)) :
    after hostOps0_2 (after hostOps0_1 (after hostOps0 V)) (Proc.devRef .tc main_arg6) = V (Proc.devRef .tc main_arg6) := by
  dsimp only [hostOps0, hostOps0_1, hostOps0_2]; after_results_simp

theorem before0_arg7 (V : Valuation τ sig (Elt F)) :
    after hostOps0_2 (after hostOps0_1 (after hostOps0 V)) (Proc.devRef .tc main_arg7) = V (Proc.devRef .tc main_arg7) := by
  dsimp only [hostOps0, hostOps0_1, hostOps0_2]; after_results_simp

/-! ## The stretch between regions 0 and 1 -/

/-- The first hidden activation: region 0's output, batch-normalised. -/
theorem before1_hidden (V : Valuation τ sig (Elt F)) :
    after hostOps1_4 (after hostOps1_3 (after hostOps1_2 (after hostOps1_1 (after hostOps1 V)))) (Proc.devRef .tc main_v27)
      = Glue.batchNorm (V (Proc.devRef .tc main_v8)) (V (Proc.devRef .tc main_arg2)) (V (Proc.devRef .tc main_arg3)) := by
  dsimp only [hostOps1, hostOps1_1, hostOps1_2, hostOps1_3, hostOps1_4]; after_results_simp; rfl

/-- The second layer's unit-length weight rows, transposed, in bf16. -/
theorem before1_weights (V : Valuation τ sig (Elt F)) :
    after hostOps1_4 (after hostOps1_3 (after hostOps1_2 (after hostOps1_1 (after hostOps1 V)))) (Proc.devRef .tc main_v34)
      = truncf .bf16 (transpose S300x300 [1, 0] (Glue.unitWeights2 (V (Proc.devRef .tc main_arg4))) Facts₀.transposes_S300x300_S300x300_1_0) Facts₀.bitsLt_bf16_f32 := by
  dsimp only [hostOps1, hostOps1_1, hostOps1_2, hostOps1_3, hostOps1_4]; after_results_simp; rfl

theorem before1_arg5 (V : Valuation τ sig (Elt F)) :
    after hostOps1_4 (after hostOps1_3 (after hostOps1_2 (after hostOps1_1 (after hostOps1 V)))) (Proc.devRef .tc main_arg5) = V (Proc.devRef .tc main_arg5) := by
  dsimp only [hostOps1, hostOps1_1, hostOps1_2, hostOps1_3, hostOps1_4]; after_results_simp

theorem before1_arg6 (V : Valuation τ sig (Elt F)) :
    after hostOps1_4 (after hostOps1_3 (after hostOps1_2 (after hostOps1_1 (after hostOps1 V)))) (Proc.devRef .tc main_arg6) = V (Proc.devRef .tc main_arg6) := by
  dsimp only [hostOps1, hostOps1_1, hostOps1_2, hostOps1_3, hostOps1_4]; after_results_simp

theorem before1_arg7 (V : Valuation τ sig (Elt F)) :
    after hostOps1_4 (after hostOps1_3 (after hostOps1_2 (after hostOps1_1 (after hostOps1 V)))) (Proc.devRef .tc main_arg7) = V (Proc.devRef .tc main_arg7) := by
  dsimp only [hostOps1, hostOps1_1, hostOps1_2, hostOps1_3, hostOps1_4]; after_results_simp

/-! ## The stretch between regions 1 and 2 -/

/-- The second hidden activation: region 1's output, batch-normalised. -/
theorem before2_hidden (V : Valuation τ sig (Elt F)) :
    after hostOps2_2 (after hostOps2_1 (after hostOps2 V)) (Proc.devRef .tc main_v54)
      = Glue.batchNorm (V (Proc.devRef .tc main_v35)) (V (Proc.devRef .tc main_arg5)) (V (Proc.devRef .tc main_arg6)) := by
  dsimp only [hostOps2, hostOps2_1, hostOps2_2]; after_results_simp; rfl

/-- The class weights, transposed, in bf16. -/
theorem before2_weights (V : Valuation τ sig (Elt F)) :
    after hostOps2_2 (after hostOps2_1 (after hostOps2 V)) (Proc.devRef .tc main_v56)
      = truncf .bf16 (transpose S300x10 [1, 0] (V (Proc.devRef .tc main_arg7)) Facts₀.transposes_S10x300_S300x10_1_0) Facts₀.bitsLt_bf16_f32 := by
  dsimp only [hostOps2, hostOps2_1, hostOps2_2]; after_results_simp

end Cert.KernelIdeal.HostValue

end
-- ==== Proof.Spec.lean ====
/-
  What the network computes, as functions on the extended reals, index by index.

  A layer of clamped cosine similarity takes a matrix `X` of rows and a matrix `Wn` of (already unit-length) weight
  rows and returns, at `(b, o)`, the inner product of row `b` of `X` scaled to unit length with row `o` of `Wn`,
  clamped to `[0, 1]`. "Unit length" divides a row by its Euclidean norm plus the small constant `ε` both programs
  share (the f32 word `0x2B8CBCCC`): `x / (√(∑ x²) + ε)`. The last layer is the plain inner product of rows.
  Nothing here needs a finite input: every step is an operation of the extended reals applied the same way on both
  sides, and the only law used later is that a finite sum may be re-indexed.
-/
import Idealize.ShloMosaic.PureOps.Ideal
import Idealize.ShloMosaic.Lib.ValueIdx

noncomputable section

namespace Cert.Spec

open Idealize.ShloMosaic Idealize.ShloMosaic.ValueIdx

/-- The constant added to a row's norm before dividing. -/
abbrev eps : EReal := Ideal.ofBits .f32 0x2B8CBCCC#32

/-- Each row divided by its Euclidean norm plus `ε`. -/
def unitRows {B D : ℕ} (X : (⟨2, ![B, D]⟩ : Shape).Idx → EReal) : (⟨2, ![B, D]⟩ : Shape).Idx → EReal := fun i =>
  Ideal.div (X i) (Ideal.sqrt (∑ d : Fin D, X (ix2 (i 0) d) * X (ix2 (i 0) d)) + eps)

/-- Inner products of the rows of `H` with the rows of `W`: at `(b, o)`, `∑ k, H (b, k) · W (o, k)`. -/
def dotRows {B D O : ℕ} (H : (⟨2, ![B, D]⟩ : Shape).Idx → EReal) (W : (⟨2, ![O, D]⟩ : Shape).Idx → EReal) :
    (⟨2, ![B, O]⟩ : Shape).Idx → EReal := fun i =>
  ∑ k : Fin D, H (ix2 (i 0) k) * W (ix2 (i 1) k)

/-- Clamping to `[0, 1]`: first the maximum with zero, then the minimum with one. -/
def clamp01 {s : Shape} (Y : s.Idx → EReal) : s.Idx → EReal := fun i =>
  min (Ideal.ofBits .f32 0x3F800000#32) (max (Ideal.ofBits .f32 0x00000000#32) (Y i))

/-- One layer: the clamped inner products of the unit-length rows of `X` with the rows of `Wn`. -/
def cosSim {B D O : ℕ} (X : (⟨2, ![B, D]⟩ : Shape).Idx → EReal) (Wn : (⟨2, ![O, D]⟩ : Shape).Idx → EReal) :
    (⟨2, ![B, O]⟩ : Shape).Idx → EReal :=
  clamp01 (dotRows (unitRows X) Wn)

/-- A matrix read with its two coordinates exchanged. -/
def swapped {A B : ℕ} (Y : (⟨2, ![A, B]⟩ : Shape).Idx → EReal) : (⟨2, ![B, A]⟩ : Shape).Idx → EReal := fun i =>
  Y (ix2 (i 1) (i 0))

end Cert.Spec

end
-- ==== Proof.Region0.lean ====
/-
  Region 0 of the kernel's program as one function of the arrays it finds: each row of the data block
  [1024, 3072] divided by its Euclidean norm plus ε, multiplied into the whole [3072, 300] matrix and
  clamped to [0, 1], over 16 row blocks.
-/
import proofs.«121544_j45629732553070_1_alg».proof.Proof.Gen.KernelIdeal.Frame
import proofs.«121544_j45629732553070_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## Two layout operations on a column of row values, read at an index -/

/-- A length-`a` vector viewed as an `[a, 1]` column reads, at `(i, u)`, the vector at `i`. -/
private theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at row `p`. -/
private theorem column_spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices, axis by axis -/

/-- The left operand's row is the output's row. -/
private theorem lhs_row (i : S1024x300.Idx) (q : dot_S1024x3072_S3072x300_S1024x300_1_0_0_1_n_n.contr.Idx) :
    (dot_S1024x3072_S3072x300_S1024x300_1_0_0_1_n_n.lhsIdx i q 0).val = (i 0).val := by
  unfold DotDims.lhsIdx
  rw [dif_neg (show ¬(0 : Fin S1024x3072.rank) ∈ dot_S1024x3072_S3072x300_S1024x300_1_0_0_1_n_n.lhsBatch by decide),
    dif_pos (show (0 : Fin S1024x3072.rank) ∈ dot_S1024x3072_S3072x300_S1024x300_1_0_0_1_n_n.lhsNonContracting by decide)]
  rfl

/-- The left operand's column is the summation index. -/
private theorem lhs_col (i : S1024x300.Idx) (q : dot_S1024x3072_S3072x300_S1024x300_1_0_0_1_n_n.contr.Idx) :
    (dot_S1024x3072_S3072x300_S1024x300_1_0_0_1_n_n.lhsIdx i q 1).val = (q ⟨0, by decide⟩).val :=
  dot_S1024x3072_S3072x300_S1024x300_1_0_0_1_n_n.lhsIdx_val_of_single rfl i q

/-- The right operand's row is the summation index. -/
private theorem rhs_row (i : S1024x300.Idx) (q : dot_S1024x3072_S3072x300_S1024x300_1_0_0_1_n_n.contr.Idx) :
    (dot_S1024x3072_S3072x300_S1024x300_1_0_0_1_n_n.rhsIdx i q 0).val = (q ⟨0, by decide⟩).val :=
  dot_S1024x3072_S3072x300_S1024x300_1_0_0_1_n_n.rhsIdx_val_of_single rfl i q

/-- The right operand's column is the output's column. -/
private theorem rhs_col (i : S1024x300.Idx) (q : dot_S1024x3072_S3072x300_S1024x300_1_0_0_1_n_n.contr.Idx) :
    (dot_S1024x3072_S3072x300_S1024x300_1_0_0_1_n_n.rhsIdx i q 1).val = (i 1).val := by
  unfold DotDims.rhsIdx
  rw [dif_neg (show ¬(1 : Fin S3072x300.rank) ∈ dot_S1024x3072_S3072x300_S1024x300_1_0_0_1_n_n.rhsBatch by decide),
    dif_pos (show (1 : Fin S3072x300.rank) ∈ dot_S1024x3072_S3072x300_S1024x300_1_0_0_1_n_n.rhsNonContracting by decide)]
  rfl

/-! ## The body's two sums, read at an index -/

/-- The sum over the lanes of row `p` of a `[1024, 3072]` block. -/
private theorem row_sum_apply (v : FVec Ideal S1024x3072 .f32) (h : S1024x3072.Reduces [1] S1024)
    (hφ : FKind.Formats .f32) (hacc : (0x00000000#32 : BitVec 32) = 0x00000000#32) (p : Fin 1024) :
    multiReduction (F := Ideal) .add [1] S1024 v 0x00000000#32 h hφ hacc (ix1 p) = ∑ d : Fin 3072, v (ix2 p d) := by
  refine (Ideal.multiReduction_add_single v 0x00000000#32 h hφ hacc (ix1 p)).trans ?_
  refine Finset.sum_congr rfl fun d _ => congrArg v ?_
  funext a
  match a with
  | ⟨0, _⟩ => rfl
  | ⟨1, _⟩ => rfl

/-- The product accumulated into zero, at `(p, q)`: the sum over `k` of `A (p, k) · B (k, q)`. -/
private theorem product_apply (A : FVec Ideal S1024x3072 .bf16) (B : FVec Ideal S3072x300 .bf16) (p : Fin 1024) (q : Fin 300) :
    matmul dot_S1024x3072_S3072x300_S1024x300_1_0_0_1_n_n none A B (constant (F := Ideal) S1024x300 .f32 0x00000000#32) (ix2 p q)
      = ∑ k : Fin 3072, A (ix2 p k) * B (ix2 k q) := by
  simp only [matmul]
  rw [Ideal.matmul_constant_zero_apply,
    ← Equiv.sum_comp (contrEquiv1 dot_S1024x3072_S3072x300_S1024x300_1_0_0_1_n_n 3072 rfl rfl).symm]
  refine Finset.sum_congr rfl fun k _ => ?_
  have hk := contrEquiv1_symm_val dot_S1024x3072_S3072x300_S1024x300_1_0_0_1_n_n 3072 rfl rfl k
  have el : dot_S1024x3072_S3072x300_S1024x300_1_0_0_1_n_n.lhsIdx (ix2 p q)
      ((contrEquiv1 dot_S1024x3072_S3072x300_S1024x300_1_0_0_1_n_n 3072 rfl rfl).symm k) = ix2 p k :=
    funext fun a => Fin.ext (by
      match a with
      | ⟨0, _⟩ => exact lhs_row _ _
      | ⟨1, _⟩ => exact (lhs_col _ _).trans hk)
  have er : dot_S1024x3072_S3072x300_S1024x300_1_0_0_1_n_n.rhsIdx (ix2 p q)
      ((contrEquiv1 dot_S1024x3072_S3072x300_S1024x300_1_0_0_1_n_n 3072 rfl rfl).symm k) = ix2 k q :=
    funext fun a => Fin.ext (by
      match a with
      | ⟨0, _⟩ => exact (rhs_row _ _).trans hk
      | ⟨1, _⟩ => exact rhs_col _ _)
  rw [el, er]

/-- A lanewise square root reads the square root of the element. -/
private theorem sqrt_apply {s : Shape} {φ : FTy} (a : FVec Ideal s φ) (i : s.Idx) : sqrt a i = Ideal.sqrt (a i) := rfl

/-! ## The body's result at an index of the block -/

/-- Row `p`, column `q` of what the body stores: the clamp to `[0, 1]` of `∑ k, (x0 (p, k) / (√(∑ d, x0 (p, d)²) + ε)) · x1 (k, q)`. -/
private theorem pay_apply (x0 : FVec Ideal S1024x3072 .f32) (x1 : FVec Ideal S3072x300 .bf16) (p : Fin 1024) (q : Fin 300) :
    k0_pay1 (F := Ideal) x0 x1 (ix2 p q)
      = min (Ideal.ofBits .f32 0x3F800000#32) (max (Ideal.ofBits .f32 0x00000000#32)
          (∑ k : Fin 3072, Ideal.div (x0 (ix2 p k)) (Ideal.sqrt (∑ d : Fin 3072, x0 (ix2 p d) * x0 (ix2 p d)) + Spec.eps)
            * x1 (ix2 k q))) := by
  unfold k0_pay1
  rw [minimumf_apply, maximumf_apply, broadcast_apply, broadcast_apply, shapeCast_self, shapeCast_self, product_apply]
  refine congrArg (min _) (congrArg (max _) (Finset.sum_congr rfl fun k _ => ?_))
  rw [truncf_apply, divf_apply, column_spread_apply, addf_apply, broadcast_apply, sqrt_apply, column_of_vector_apply,
    row_sum_apply]
  rfl

variable (V : (c : Dev nD) → (b : Ref sig .tc) → Buf (Elt Ideal) ((c : Thread nD τ).loc b))

/-! ## The specification at an index -/

/-- The clamped inner product of the unit-length row `i 0` of `X` with column `i 1` of `W`, written out. -/
private theorem cosSim_swapped_apply (X : S16384x3072.Idx → EReal) (W : S3072x300.Idx → EReal) (i : S16384x300.Idx) :
    Spec.cosSim (B := 16384) (D := 3072) (O := 300) X (Spec.swapped (A := 3072) (B := 300) W) i
      = min (Ideal.ofBits .f32 0x3F800000#32) (max (Ideal.ofBits .f32 0x00000000#32)
          (∑ k : Fin 3072, Ideal.div (X (ix2 (i 0) k)) (Ideal.sqrt (∑ d : Fin 3072, X (ix2 (i 0) d) * X (ix2 (i 0) d)) + Spec.eps)
            * W (ix2 k (i 1)))) := rfl

/-! ## From the row blocks to the array -/

private theorem zero_offsets : (![0, 0] : Fin 2 → Nat) = fun _ => 0 := funext fun a => by fin_cases a <;> rfl

/-- The windows' block indices over the 16 points: the data's row block moves with the output's and stays on the only
    column block; the matrix is the one whole block at every point; the output's row block is below 16. -/
private theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every row block of the output is some point's. -/
private theorem row_block_onto : ∀ q0 : Fin 16, ∃ t : Fin cfg0.N, win0_2.index t = ![q0.val, 0] :=
  (by decide +kernel : ∀ q0 : Fin 16, ∃ t : Fin grid0.N, win0_2.index t = ![q0.val, 0])

/-- The data block at point `t`, at `y`, is the array's entry whose row is `y`'s row inside the point's row block
    and whose column is `y`'s. -/
private theorem data_block_apply (c : Dev nD) (t : Fin cfg0.N) (y : S1024x3072.Idx) (i : S16384x3072.Idx)
    (h0 : win0_0.index t (0 : Fin 2) * 1024 + 1 * (y 0).val = (i 0).val)
    (h1 : win0_0.index t (1 : Fin 2) * 3072 + 1 * (y 1).val = (i 1).val) :
    iblk0 V c 0 t y = V c main_v0 i := by
  show V c main_v0 (((cfg0.win 0).blk t).view.emb y) = V c main_v0 i
  refine congrArg (V c main_v0) ?_
  funext a; apply Fin.ext
  match a with
  | ⟨0, _⟩ => exact h0
  | ⟨1, _⟩ => exact h1

/-- The matrix's block at point `t` is the whole matrix. -/
private theorem matrix_block_apply (c : Dev nD) (t : Fin cfg0.N) (y : S3072x300.Idx) (i : S3072x300.Idx)
    (h0 : win0_1.index t (0 : Fin 2) * 3072 + 1 * (y 0).val = (i 0).val)
    (h1 : win0_1.index t (1 : Fin 2) * 300 + 1 * (y 1).val = (i 1).val) :
    iblk0 V c 1 t y = V c main_v7 i := by
  show V c main_v7 (((cfg0.win 1).blk t).view.emb y) = V c main_v7 i
  refine congrArg (V c main_v7) ?_
  funext a; apply Fin.ext
  match a with
  | ⟨0, _⟩ => exact h0
  | ⟨1, _⟩ => exact h1

/-- What point `t` writes back is row block `t` of the clamped inner products of the unit-length rows: the rows of
    the data block are rows `1024 t … 1024 t + 1023` of the data, whole (so a block row's norm is the data row's),
    and the matrix block is the matrix. -/
private theorem written_block_eq (c : Dev nD) (t : Fin cfg0.N) :
    (dat0 (F := Ideal) V c).flushed 2 t = ((cfg0.win 2).blk t).view.read (Elt Ideal)
      (Spec.cosSim (B := 16384) (D := 3072) (O := 300) (V c main_v0) (Spec.swapped (A := 3072) (B := 300) (V c main_v7))) := by
  show (cfg0.win 2).cut (grid0.coords t) ((dat0 V c).after 2 t) = _
  rw [after0_2]
  unfold out0_2
  rw [View.canon_unit_zero zero_offsets]
  simp only [View.ld_unit_zero (S := S1024x3072) zero_offsets, View.ld_unit_zero (S := S3072x300) zero_offsets]
  funext j
  obtain ⟨p, q, rfl⟩ : ∃ (p : Fin 1024) (q : Fin 300), j = ix2 p q := ⟨j 0, j 1, eq_ix2 j⟩
  obtain ⟨e0, e1, e2, e3, e4, e5⟩ := block_indices t
  show k0_pay1 (F := Ideal) (iblk0 V c 0 t) (iblk0 V c 1 t) (ix2 p q)
    = Spec.cosSim (B := 16384) (D := 3072) (O := 300) (V c main_v0) (Spec.swapped (A := 3072) (B := 300) (V c main_v7))
        (((cfg0.win 2).blk t).view.emb (ix2 p q))
  refine (pay_apply _ _ p q).trans (Eq.trans ?_ (cosSim_swapped_apply _ _ _).symm)
  have hX : ∀ k : Fin 3072, iblk0 V c 0 t (ix2 p k)
      = V c main_v0 (ix2 ((((cfg0.win 2).blk t).view.emb (ix2 p q)) 0) k) := fun k =>
    data_block_apply V c t _ _
      (by show win0_0.index t (0 : Fin 2) * 1024 + 1 * p.val = win0_2.index t (0 : Fin 2) * 1024 + 1 * p.val
          omega)
      (by show win0_0.index t (1 : Fin 2) * 3072 + 1 * k.val = k.val
          omega)
  have hW : ∀ k : Fin 3072, iblk0 V c 1 t (ix2 k q)
      = V c main_v7 (ix2 k ((((cfg0.win 2).blk t).view.emb (ix2 p q)) 1)) := fun k =>
    matrix_block_apply V c t _ _
      (by show win0_1.index t (0 : Fin 2) * 3072 + 1 * k.val = k.val
          omega)
      (by show win0_1.index t (1 : Fin 2) * 300 + 1 * q.val = win0_2.index t (1 : Fin 2) * 300 + 1 * q.val
          omega)
  simp only [hX, hW]

/-- An index of the output array is in point `t`'s block iff each coordinate is in the block's range on its axis. -/
private theorem mem_row_block (t : Fin cfg0.N) (i : S16384x300.Idx) :
    i ∈ ((cfg0.win 2).blk t).view.set ↔ ∀ a : Fin 2, win0_2.index t a * S1024x300.size a ≤ (i a).val
      ∧ (i a).val < win0_2.index t a * S1024x300.size a + S1024x300.size a := by
  show i ∈ ((View.whole main_v8).slice (win0_2.rect t)).set ↔ _
  rw [View.set_slice_whole, Rect.mem_set_unit]
  exact Iff.rfl

/-- Row `r` of the output lies in the block of the point whose row block is `r / 1024`. -/
private theorem every_row_written (i : S16384x300.Idx) :
    ∃ t : Fin cfg0.N, (cfg0.win 2).flush t = true ∧ i ∈ ((cfg0.win 2).blk t).view.set := by
  have hi0 : (i 0).val < 16384 := (i 0).isLt
  have hi1 : (i 1).val < 300 := (i 1).isLt
  obtain ⟨t, ht⟩ := row_block_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_row_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 300 ≤ (i 1).val ∧ (i 1).val < win0_2.index t (1 : Fin 2) * 300 + 300
    omega

theorem region0 (c : Dev nD) :
    (dat0 (F := Ideal) V c).arrAt 2 cfg0.N
      = Spec.cosSim (B := 16384) (D := 3072) (O := 300) (V c main_v0) (Spec.swapped (A := 3072) (B := 300) (V c main_v7)) := by
  exact (dat0 (F := Ideal) V c).arrAt_eq_of_cover 2 _ (fun t _ => written_block_eq V c t) every_row_written

end Cert.KernelIdeal.RegionValue

end
-- ==== Proof.Region1.lean ====
/-
  Region 1 of the kernel's program as one function of the arrays it finds: each row of a row block [2048, 300]
  divided by its Euclidean norm plus a constant, times the whole [300, 300] matrix, clamped to [0, 1]; 8 row blocks.
-/
import proofs.«121544_j45629732553070_1_alg».proof.Proof.Gen.KernelIdeal.Frame
import proofs.«121544_j45629732553070_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Layer1

/-! ## The product's operand indices, axis by axis

The product contracts the left operand's axis 1 with the right operand's axis 0: at the output index `(b, o)` and the
contraction position `k` the left operand is read at `(b, k)` and the right one at `(k, o)`. -/

/-- The left operand's row is the output's row. -/
theorem dotL_row (i : S2048x300.Idx) (q : dot_S2048x300_S300x300_S2048x300_1_0_0_1_n_n.contr.Idx) :
    (dot_S2048x300_S300x300_S2048x300_1_0_0_1_n_n.lhsIdx i q 0).val = (i 0).val := by
  unfold DotDims.lhsIdx
  rw [dif_neg (show ¬(0 : Fin S2048x300.rank) ∈ dot_S2048x300_S300x300_S2048x300_1_0_0_1_n_n.lhsBatch by decide),
    dif_pos (show (0 : Fin S2048x300.rank) ∈ dot_S2048x300_S300x300_S2048x300_1_0_0_1_n_n.lhsNonContracting by decide)]
  rfl

/-- The left operand's column is the contraction position. -/
theorem dotL_col (i : S2048x300.Idx) (q : dot_S2048x300_S300x300_S2048x300_1_0_0_1_n_n.contr.Idx) :
    (dot_S2048x300_S300x300_S2048x300_1_0_0_1_n_n.lhsIdx i q 1).val = (q ⟨0, by decide⟩).val :=
  dot_S2048x300_S300x300_S2048x300_1_0_0_1_n_n.lhsIdx_val_of_single rfl i q

/-- The right operand's row is the contraction position. -/
theorem dotR_row (i : S2048x300.Idx) (q : dot_S2048x300_S300x300_S2048x300_1_0_0_1_n_n.contr.Idx) :
    (dot_S2048x300_S300x300_S2048x300_1_0_0_1_n_n.rhsIdx i q 0).val = (q ⟨0, by decide⟩).val :=
  dot_S2048x300_S300x300_S2048x300_1_0_0_1_n_n.rhsIdx_val_of_single rfl i q

/-- The right operand's column is the output's column. -/
theorem dotR_col (i : S2048x300.Idx) (q : dot_S2048x300_S300x300_S2048x300_1_0_0_1_n_n.contr.Idx) :
    (dot_S2048x300_S300x300_S2048x300_1_0_0_1_n_n.rhsIdx i q 1).val = (i 1).val := by
  unfold DotDims.rhsIdx
  rw [dif_neg (show ¬(1 : Fin S300x300.rank) ∈ dot_S2048x300_S300x300_S2048x300_1_0_0_1_n_n.rhsBatch by decide),
    dif_pos (show (1 : Fin S300x300.rank) ∈ dot_S2048x300_S300x300_S2048x300_1_0_0_1_n_n.rhsNonContracting by decide)]
  rfl

/-! ## The row norm's three layout steps -/

/-- The sum over a row's lanes of the squares: at row `p`, `∑ d, x (p, d) · x (p, d)`. -/
theorem rowSumSq_apply (x : FVec Ideal S2048x300 .f32) (hφ : FKind.Formats .f32)
    (hacc : (0x00000000#32 : BitVec 32) = FKind.add.neutral .f32 hφ) (p : Fin 2048) :
    multiReduction (F := Ideal) .add [1] S2048 (mulf x x) 0x00000000#32 reduces_S2048x300_S2048 hφ hacc (ix1 p)
      = ∑ d : Fin 300, x (ix2 p d) * x (ix2 p d) := by
  refine (Ideal.multiReduction_add_single (mulf x x) _ reduces_S2048x300_S2048 hφ hacc (ix1 p)).trans ?_
  refine Finset.sum_congr rfl fun d _ => ?_
  have e : reduces_S2048x300_S2048.lift (ix1 p) d = ix2 p d := funext fun a => Fin.ext (by
    match a with
    | ⟨0, _⟩ => rfl
    | ⟨1, _⟩ => rfl)
  rw [e]
  rfl

/-- The vector of row sums as a column: entry `(p, 0)` is entry `p`. -/
theorem column_apply {α : Type} (v : S2048.Idx → α) (h : S2048.ShapeCasts S2048x1) (p : Fin 2048) (z : Fin 1) :
    shapeCast S2048x1 v h (ix2 p z) = v (ix1 p) := by
  refine shapeCast_apply v h (ix2 p z) (ix1 p) ?_
  rw [Shape.rowMajor_val_one, Shape.rowMajor_val_two]
  show p.val = p.val * 1 + z.val
  omega

/-- The column spread along the lanes: entry `(p, k)` is the column's entry `(p, 0)`. -/
theorem spread_apply {α : Type} (w : S2048x1.Idx → α) (h : S2048x1.Broadcasts S2048x300) (p : Fin 2048) (k : Fin 300) :
    broadcastTo S2048x300 w h (ix2 p k) = w (ix2 p (0 : Fin 1)) := by
  refine broadcastTo_apply w h (ix2 p k) (ix2 p (0 : Fin 1)) fun a => ?_
  match a with
  | ⟨0, _⟩ => rfl
  | ⟨1, _⟩ => rfl

/-! ## The body's result at an index -/

/-- The block's result at `(p, q)`: the sum over `k` of the left block's `(p, k)` entry, divided by the Euclidean
    norm of the left block's row `p` plus the constant, times the right block's `(k, q)` entry, clamped to [0, 1];
    the narrowing and the two casts to the same shape change nothing at the ideal values, and the accumulator is zero. -/
theorem blockCos_apply (x0 : FVec Ideal S2048x300 .f32) (x1 : FVec Ideal S300x300 .bf16) (p : Fin 2048) (q : Fin 300) :
    k1_pay1 (F := Ideal) x0 x1 (ix2 p q)
      = min (Ideal.ofBits .f32 0x3F800000#32) (max (Ideal.ofBits .f32 0x00000000#32)
          (∑ k : Fin 300, Ideal.div (x0 (ix2 p k)) (Ideal.sqrt (∑ d : Fin 300, x0 (ix2 p d) * x0 (ix2 p d)) + Spec.eps)
            * x1 (ix2 k q))) := by
  unfold k1_pay1
  simp only [matmul, shapeCast_self]
  refine congrArg (min _) (congrArg (max _) ?_)
  rw [Ideal.matmul_constant_zero_apply,
    ← Equiv.sum_comp (contrEquiv1 dot_S2048x300_S300x300_S2048x300_1_0_0_1_n_n 300 rfl rfl).symm]
  refine Finset.sum_congr rfl fun k _ => ?_
  have hk := contrEquiv1_symm_val dot_S2048x300_S300x300_S2048x300_1_0_0_1_n_n 300 rfl rfl k
  have el : dot_S2048x300_S300x300_S2048x300_1_0_0_1_n_n.lhsIdx (ix2 p q)
      ((contrEquiv1 dot_S2048x300_S300x300_S2048x300_1_0_0_1_n_n 300 rfl rfl).symm k) = ix2 p k := funext fun a => Fin.ext (by
    match a with
    | ⟨0, _⟩ => exact dotL_row _ _
    | ⟨1, _⟩ => exact (dotL_col _ _).trans hk)
  have er : dot_S2048x300_S300x300_S2048x300_1_0_0_1_n_n.rhsIdx (ix2 p q)
      ((contrEquiv1 dot_S2048x300_S300x300_S2048x300_1_0_0_1_n_n 300 rfl rfl).symm k) = ix2 k q := funext fun a => Fin.ext (by
    match a with
    | ⟨0, _⟩ => exact (dotR_row _ _).trans hk
    | ⟨1, _⟩ => exact dotR_col _ _)
  rw [el, er]
  refine congrArg (· * x1 (ix2 k q)) ?_
  refine congrArg (Ideal.div (x0 (ix2 p k))) ?_
  refine (spread_apply _ _ p k).trans ?_
  refine congrArg (fun z => Ideal.sqrt z + Spec.eps) ?_
  refine (column_apply _ _ p 0).trans ?_
  exact rowSumSq_apply x0 _ _ p

variable (V : (c : Dev nD) → (b : Ref sig .tc) → Buf (Elt Ideal) ((c : Thread nD τ).loc b))

/-! ## From the row blocks to the array -/

theorem zeroOffset : (![0, 0] : Fin 2 → Nat) = fun _ => 0 := funext fun a => by fin_cases a <;> rfl

/-- The windows' block indices over the 8 points: the left operand's row block moves with the output's and stays on
    the only column block; the right operand is the one whole block at every point; the output's row block is below 8. -/
theorem blockIndices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every row block of the output is some point's. -/
theorem rowBlock_onto : ∀ q0 : Fin 8, ∃ t : Fin cfg1.N, win1_2.index t = ![q0.val, 0] :=
  (by decide +kernel : ∀ q0 : Fin 8, ∃ t : Fin grid1.N, win1_2.index t = ![q0.val, 0])

/-- The left operand's block at point `t`, at `y`, is the array's entry at the index whose row is `y`'s row inside
    the point's row block and whose column is `y`'s. -/
theorem leftBlock_apply (c : Dev nD) (t : Fin cfg1.N) (y : S2048x300.Idx) (i : S16384x300.Idx)
    (h0 : win1_0.index t (0 : Fin 2) * 2048 + 1 * (y 0).val = (i 0).val)
    (h1 : win1_0.index t (1 : Fin 2) * 300 + 1 * (y 1).val = (i 1).val) :
    iblk1 V c 0 t y = V c main_v27 i := by
  show V c main_v27 (((cfg1.win 0).blk t).view.emb y) = V c main_v27 i
  refine congrArg (V c main_v27) ?_
  funext a; apply Fin.ext
  match a with
  | ⟨0, _⟩ => exact h0
  | ⟨1, _⟩ => exact h1

/-- The right operand's block at point `t` is the whole array. -/
theorem rightBlock_apply (c : Dev nD) (t : Fin cfg1.N) (y : S300x300.Idx) (i : S300x300.Idx)
    (h0 : win1_1.index t (0 : Fin 2) * 300 + 1 * (y 0).val = (i 0).val)
    (h1 : win1_1.index t (1 : Fin 2) * 300 + 1 * (y 1).val = (i 1).val) :
    iblk1 V c 1 t y = V c main_v34 i := by
  show V c main_v34 (((cfg1.win 1).blk t).view.emb y) = V c main_v34 i
  refine congrArg (V c main_v34) ?_
  funext a; apply Fin.ext
  match a with
  | ⟨0, _⟩ => exact h0
  | ⟨1, _⟩ => exact h1

/-- What point `t` writes back is row block `t` of the clamped inner products of the unit-length rows: the block's
    row `p` is the array's row `t · 2048 + p`, whole along the contracted axis, so its norm is the array row's. -/
theorem flushed_eq (c : Dev nD) (t : Fin cfg1.N) :
    (dat1 (F := Ideal) V c).flushed 2 t = ((cfg1.win 2).blk t).view.read (Elt Ideal)
      (Spec.cosSim (B := 16384) (D := 300) (O := 300) (V c main_v27) (Spec.swapped (A := 300) (B := 300) (V c main_v34))) := by
  show (cfg1.win 2).cut (grid1.coords t) ((dat1 V c).after 2 t) = _
  rw [after1_2]
  unfold out1_2
  rw [View.canon_unit_zero zeroOffset]
  simp only [View.ld_unit_zero (S := S2048x300) zeroOffset, View.ld_unit_zero (S := S300x300) zeroOffset]
  funext j
  obtain ⟨p, q, rfl⟩ : ∃ (p : Fin 2048) (q : Fin 300), j = ix2 p q := ⟨j 0, j 1, eq_ix2 j⟩
  obtain ⟨e0, e1, e2, e3, e4, e5⟩ := blockIndices t
  show k1_pay1 (F := Ideal) (iblk1 V c 0 t) (iblk1 V c 1 t) (ix2 p q)
    = Spec.cosSim (B := 16384) (D := 300) (O := 300) (V c main_v27) (Spec.swapped (A := 300) (B := 300) (V c main_v34))
        (((cfg1.win 2).blk t).view.emb (ix2 p q))
  refine (blockCos_apply _ _ p q).trans ?_
  have hL : ∀ k : Fin 300, iblk1 V c 0 t (ix2 p k)
      = V c main_v27 (ix2 ((((cfg1.win 2).blk t).view.emb (ix2 p q)) 0) k) := fun k =>
    leftBlock_apply V c t _ _
      (by show win1_0.index t (0 : Fin 2) * 2048 + 1 * p.val = win1_2.index t (0 : Fin 2) * 2048 + 1 * p.val; omega)
      (by show win1_0.index t (1 : Fin 2) * 300 + 1 * k.val = k.val; omega)
  have hR : ∀ k : Fin 300, iblk1 V c 1 t (ix2 k q)
      = V c main_v34 (ix2 k ((((cfg1.win 2).blk t).view.emb (ix2 p q)) 1)) := fun k =>
    rightBlock_apply V c t _ _
      (by show win1_1.index t (0 : Fin 2) * 300 + 1 * k.val = k.val; omega)
      (by show win1_1.index t (1 : Fin 2) * 300 + 1 * q.val = win1_2.index t (1 : Fin 2) * 300 + 1 * q.val; omega)
  unfold Spec.cosSim Spec.clamp01 Spec.dotRows Spec.unitRows Spec.swapped
  refine congrArg (min _) (congrArg (max _) (Finset.sum_congr rfl fun k _ => ?_))
  exact congrArg₂ (· * ·)
    (congrArg₂ Ideal.div (hL k)
      (congrArg (fun z => Ideal.sqrt z + Spec.eps) (Finset.sum_congr rfl fun d _ => congrArg₂ (· * ·) (hL d) (hL d))))
    (hR k)

/-- An index of the output array is in point `t`'s block iff each coordinate is in the block's range on its axis. -/
theorem mem_rowBlock (t : Fin cfg1.N) (i : S16384x300.Idx) :
    i ∈ ((cfg1.win 2).blk t).view.set ↔ ∀ a : Fin 2, win1_2.index t a * S2048x300.size a ≤ (i a).val
      ∧ (i a).val < win1_2.index t a * S2048x300.size a + S2048x300.size a := by
  show i ∈ ((View.whole main_v35).slice (win1_2.rect t)).set ↔ _
  rw [View.set_slice_whole, Rect.mem_set_unit]
  exact Iff.rfl

/-- Row `r` of the output lies in the block of the point whose row block is `r / 2048`. -/
theorem covered (i : S16384x300.Idx) :
    ∃ t : Fin cfg1.N, (cfg1.win 2).flush t = true ∧ i ∈ ((cfg1.win 2).blk t).view.set := by
  have hi0 : (i 0).val < 16384 := (i 0).isLt
  have hi1 : (i 1).val < 300 := (i 1).isLt
  obtain ⟨t, ht⟩ := rowBlock_onto ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_rowBlock]
  intro a
  match a with
  | ⟨0, _⟩ =>
    show win1_2.index t (0 : Fin 2) * 2048 ≤ (i 0).val ∧ (i 0).val < win1_2.index t (0 : Fin 2) * 2048 + 2048
    omega
  | ⟨1, _⟩ =>
    show win1_2.index t (1 : Fin 2) * 300 ≤ (i 1).val ∧ (i 1).val < win1_2.index t (1 : Fin 2) * 300 + 300
    omega

end Layer1

variable (V : (c : Dev nD) → (b : Ref sig .tc) → Buf (Elt Ideal) ((c : Thread nD τ).loc b))

theorem region1 (c : Dev nD) :
    (dat1 (F := Ideal) V c).arrAt 2 cfg1.N
      = Spec.cosSim (B := 16384) (D := 300) (O := 300) (V c main_v27) (Spec.swapped (A := 300) (B := 300) (V c main_v34)) := by
  exact (dat1 (F := Ideal) V c).arrAt_eq_of_cover 2 _ (fun t _ => Layer1.flushed_eq V c t) Layer1.covered

end Cert.KernelIdeal.RegionValue

end
-- ==== Proof.Region2.lean ====
/-
  Region 2 of the kernel's program as one function of the arrays it finds: the plain product kernel,
  a row block [2048, 300] times the whole [300, 10] matrix, over 8 row blocks.
-/
import proofs.«121544_j45629732553070_1_alg».proof.Proof.Gen.KernelIdeal.Frame
import proofs.«121544_j45629732553070_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The product's operand indices, axis by axis

The product contracts the left operand's axis 1 with the right operand's axis 0: at the output index `(b, o)` and the
contraction position `k` the left operand is read at `(b, k)` and the right one at `(k, o)`. -/

/-- The left operand's row is the output's row. -/
theorem dotL_row (i : S2048x10.Idx) (q : dot_S2048x300_S300x10_S2048x10_1_0_0_1_n_n.contr.Idx) :
    (dot_S2048x300_S300x10_S2048x10_1_0_0_1_n_n.lhsIdx i q 0).val = (i 0).val := by
  unfold DotDims.lhsIdx
  rw [dif_neg (show ¬(0 : Fin S2048x300.rank) ∈ dot_S2048x300_S300x10_S2048x10_1_0_0_1_n_n.lhsBatch by decide),
    dif_pos (show (0 : Fin S2048x300.rank) ∈ dot_S2048x300_S300x10_S2048x10_1_0_0_1_n_n.lhsNonContracting by decide)]
  rfl

/-- The left operand's column is the contraction position. -/
theorem dotL_col (i : S2048x10.Idx) (q : dot_S2048x300_S300x10_S2048x10_1_0_0_1_n_n.contr.Idx) :
    (dot_S2048x300_S300x10_S2048x10_1_0_0_1_n_n.lhsIdx i q 1).val = (q ⟨0, by decide⟩).val :=
  dot_S2048x300_S300x10_S2048x10_1_0_0_1_n_n.lhsIdx_val_of_single rfl i q

/-- The right operand's row is the contraction position. -/
theorem dotR_row (i : S2048x10.Idx) (q : dot_S2048x300_S300x10_S2048x10_1_0_0_1_n_n.contr.Idx) :
    (dot_S2048x300_S300x10_S2048x10_1_0_0_1_n_n.rhsIdx i q 0).val = (q ⟨0, by decide⟩).val :=
  dot_S2048x300_S300x10_S2048x10_1_0_0_1_n_n.rhsIdx_val_of_single rfl i q

/-- The right operand's column is the output's column. -/
theorem dotR_col (i : S2048x10.Idx) (q : dot_S2048x300_S300x10_S2048x10_1_0_0_1_n_n.contr.Idx) :
    (dot_S2048x300_S300x10_S2048x10_1_0_0_1_n_n.rhsIdx i q 1).val = (i 1).val := by
  unfold DotDims.rhsIdx
  rw [dif_neg (show ¬(1 : Fin S300x10.rank) ∈ dot_S2048x300_S300x10_S2048x10_1_0_0_1_n_n.rhsBatch by decide),
    dif_pos (show (1 : Fin S300x10.rank) ∈ dot_S2048x300_S300x10_S2048x10_1_0_0_1_n_n.rhsNonContracting by decide)]
  rfl

/-! ## The body's product at an index -/

/-- The block product at `(p, q)`: the sum over `k` of the left block's `(p, k)` entry times the right block's
    `(k, q)` entry; the narrowing of the left block and the two casts to the same shape change nothing at the
    ideal values, and the accumulator is zero. -/
theorem blockProduct_apply (x0 : FVec Ideal S2048x300 .f32) (x1 : FVec Ideal S300x10 .bf16) (p : Fin 2048) (q : Fin 10) :
    k2_pay1 (F := Ideal) x0 x1 (ix2 p q) = ∑ k : Fin 300, x0 (ix2 p k) * x1 (ix2 k q) := by
  unfold k2_pay1
  simp only [matmul, shapeCast_self]
  rw [Ideal.matmul_constant_zero_apply,
    ← Equiv.sum_comp (contrEquiv1 dot_S2048x300_S300x10_S2048x10_1_0_0_1_n_n 300 rfl rfl).symm]
  refine Finset.sum_congr rfl fun k _ => ?_
  have hk := contrEquiv1_symm_val dot_S2048x300_S300x10_S2048x10_1_0_0_1_n_n 300 rfl rfl k
  have el : dot_S2048x300_S300x10_S2048x10_1_0_0_1_n_n.lhsIdx (ix2 p q)
      ((contrEquiv1 dot_S2048x300_S300x10_S2048x10_1_0_0_1_n_n 300 rfl rfl).symm k) = ix2 p k := funext fun a => Fin.ext (by
    match a with
    | ⟨0, _⟩ => exact dotL_row _ _
    | ⟨1, _⟩ => exact (dotL_col _ _).trans hk)
  have er : dot_S2048x300_S300x10_S2048x10_1_0_0_1_n_n.rhsIdx (ix2 p q)
      ((contrEquiv1 dot_S2048x300_S300x10_S2048x10_1_0_0_1_n_n 300 rfl rfl).symm k) = ix2 k q := funext fun a => Fin.ext (by
    match a with
    | ⟨0, _⟩ => exact (dotR_row _ _).trans hk
    | ⟨1, _⟩ => exact dotR_col _ _)
  rw [el, er]
  rfl

variable (V : (c : Dev nD) → (b : Ref sig .tc) → Buf (Elt Ideal) ((c : Thread nD τ).loc b))

/-! ## From the row blocks to the array -/

theorem zeroOffset : (![0, 0] : Fin 2 → Nat) = fun _ => 0 := funext fun a => by fin_cases a <;> rfl

/-- The windows' block indices over the 8 points: the left operand's row block moves with the output's and stays on
    the only column block; the right operand is the one whole block at every point; the output's row block is below 8. -/
theorem blockIndices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every row block of the output is some point's. -/
theorem rowBlock_onto : ∀ q0 : Fin 8, ∃ t : Fin cfg2.N, win2_2.index t = ![q0.val, 0] :=
  (by decide +kernel : ∀ q0 : Fin 8, ∃ t : Fin grid2.N, win2_2.index t = ![q0.val, 0])

/-- The left operand's block at point `t`, at `y`, is the array's entry at the index whose row is `y`'s row inside
    the point's row block and whose column is `y`'s. -/
theorem leftBlock_apply (c : Dev nD) (t : Fin cfg2.N) (y : S2048x300.Idx) (i : S16384x300.Idx)
    (h0 : win2_0.index t (0 : Fin 2) * 2048 + 1 * (y 0).val = (i 0).val)
    (h1 : win2_0.index t (1 : Fin 2) * 300 + 1 * (y 1).val = (i 1).val) :
    iblk2 V c 0 t y = V c main_v54 i := by
  show V c main_v54 (((cfg2.win 0).blk t).view.emb y) = V c main_v54 i
  refine congrArg (V c main_v54) ?_
  funext a; apply Fin.ext
  match a with
  | ⟨0, _⟩ => exact h0
  | ⟨1, _⟩ => exact h1

/-- The right operand's block at point `t` is the whole array. -/
theorem rightBlock_apply (c : Dev nD) (t : Fin cfg2.N) (y : S300x10.Idx) (i : S300x10.Idx)
    (h0 : win2_1.index t (0 : Fin 2) * 300 + 1 * (y 0).val = (i 0).val)
    (h1 : win2_1.index t (1 : Fin 2) * 10 + 1 * (y 1).val = (i 1).val) :
    iblk2 V c 1 t y = V c main_v56 i := by
  show V c main_v56 (((cfg2.win 1).blk t).view.emb y) = V c main_v56 i
  refine congrArg (V c main_v56) ?_
  funext a; apply Fin.ext
  match a with
  | ⟨0, _⟩ => exact h0
  | ⟨1, _⟩ => exact h1

/-- What point `t` writes back is row block `t` of the rows' inner products. -/
theorem flushed_eq (c : Dev nD) (t : Fin cfg2.N) :
    (dat2 (F := Ideal) V c).flushed 2 t = ((cfg2.win 2).blk t).view.read (Elt Ideal)
      (Spec.dotRows (B := 16384) (D := 300) (O := 10) (V c main_v54) (Spec.swapped (A := 300) (B := 10) (V c main_v56))) := by
  show (cfg2.win 2).cut (grid2.coords t) ((dat2 V c).after 2 t) = _
  rw [after2_2]
  unfold out2_2
  rw [View.canon_unit_zero zeroOffset]
  simp only [View.ld_unit_zero (S := S2048x300) zeroOffset, View.ld_unit_zero (S := S300x10) zeroOffset]
  funext j
  obtain ⟨p, q, rfl⟩ : ∃ (p : Fin 2048) (q : Fin 10), j = ix2 p q := ⟨j 0, j 1, eq_ix2 j⟩
  obtain ⟨e0, e1, e2, e3, e4, e5⟩ := blockIndices t
  show k2_pay1 (F := Ideal) (iblk2 V c 0 t) (iblk2 V c 1 t) (ix2 p q)
    = Spec.dotRows (B := 16384) (D := 300) (O := 10) (V c main_v54) (Spec.swapped (A := 300) (B := 10) (V c main_v56))
        (((cfg2.win 2).blk t).view.emb (ix2 p q))
  refine (blockProduct_apply _ _ p q).trans ?_
  unfold Spec.dotRows Spec.swapped
  refine Finset.sum_congr rfl fun k _ => ?_
  refine congrArg₂ (· * ·) (leftBlock_apply V c t _ _ ?_ ?_) (rightBlock_apply V c t _ _ ?_ ?_)
  · show win2_0.index t (0 : Fin 2) * 2048 + 1 * p.val = win2_2.index t (0 : Fin 2) * 2048 + 1 * p.val
    omega
  · show win2_0.index t (1 : Fin 2) * 300 + 1 * k.val = k.val
    omega
  · show win2_1.index t (0 : Fin 2) * 300 + 1 * k.val = k.val
    omega
  · show win2_1.index t (1 : Fin 2) * 10 + 1 * q.val = win2_2.index t (1 : Fin 2) * 10 + 1 * q.val
    omega

/-- An index of the output array is in point `t`'s block iff each coordinate is in the block's range on its axis. -/
theorem mem_rowBlock (t : Fin cfg2.N) (i : S16384x10.Idx) :
    i ∈ ((cfg2.win 2).blk t).view.set ↔ ∀ a : Fin 2, win2_2.index t a * S2048x10.size a ≤ (i a).val
      ∧ (i a).val < win2_2.index t a * S2048x10.size a + S2048x10.size a := by
  show i ∈ ((View.whole main_v57).slice (win2_2.rect t)).set ↔ _
  rw [View.set_slice_whole, Rect.mem_set_unit]
  exact Iff.rfl

/-- Row `r` of the output lies in the block of the point whose row block is `r / 2048`. -/
theorem covered (i : S16384x10.Idx) :
    ∃ t : Fin cfg2.N, (cfg2.win 2).flush t = true ∧ i ∈ ((cfg2.win 2).blk t).view.set := by
  have hi0 : (i 0).val < 16384 := (i 0).isLt
  have hi1 : (i 1).val < 10 := (i 1).isLt
  obtain ⟨t, ht⟩ := rowBlock_onto ⟨(i 0).val / 2048, by omega⟩
  have q0 : win2_2.index t (0 : Fin 2) = (i 0).val / 2048 := congrFun ht 0
  have q1 : win2_2.index t (1 : Fin 2) = 0 := congrFun ht 1
  refine ⟨t, flush2_2 t, ?_⟩
  rw [mem_rowBlock]
  intro a
  match a with
  | ⟨0, _⟩ =>
    show win2_2.index t (0 : Fin 2) * 2048 ≤ (i 0).val ∧ (i 0).val < win2_2.index t (0 : Fin 2) * 2048 + 2048
    omega
  | ⟨1, _⟩ =>
    show win2_2.index t (1 : Fin 2) * 10 ≤ (i 1).val ∧ (i 1).val < win2_2.index t (1 : Fin 2) * 10 + 10
    omega

theorem region2 (c : Dev nD) :
    (dat2 (F := Ideal) V c).arrAt 2 cfg2.N
      = Spec.dotRows (B := 16384) (D := 300) (O := 10) (V c main_v54) (Spec.swapped (A := 300) (B := 10) (V c main_v56)) := by
  exact (dat2 (F := Ideal) V c).arrAt_eq_of_cover 2 _ (fun t _ => flushed_eq V c t) covered

end Cert.KernelIdeal.RegionValue

end
-- ==== Proof.Net.lean ====
/-
  The network both programs compute, at the extended reals, as one function of the eight arguments:
  flatten the images; a clamped-cosine layer against the unit-length rows of `w1`; batch normalisation with
  `g1`, `b1`; a second clamped-cosine layer against the unit-length rows of `w2`; batch normalisation with `g2`,
  `b2`; and the inner products with the rows of `w3`.
-/
import proofs.«121544_j45629732553070_1_alg».proof.Proof.Spec
import proofs.«121544_j45629732553070_1_alg».proof.Proof.Glue

noncomputable section

namespace Cert.Net

open Idealize.ShloMosaic

/-- The result array, `[16384, 10]`, of the arguments. -/
def net (x : FVec Ideal Glue.S16384x3x32x32 .f32) (w1 : FVec Ideal Glue.S300x3072 .f32) (g1 b1 : FVec Ideal Glue.S300 .f32)
    (w2 : FVec Ideal Glue.S300x300 .f32) (g2 b2 : FVec Ideal Glue.S300 .f32) (w3 : (⟨2, ![10, 300]⟩ : Shape).Idx → EReal) :
    (⟨2, ![16384, 10]⟩ : Shape).Idx → EReal :=
  Spec.dotRows (B := 16384) (D := 300) (O := 10)
    (Glue.batchNorm (F := Ideal)
      (Spec.cosSim (B := 16384) (D := 300) (O := 300)
        (Glue.batchNorm (F := Ideal)
          (Spec.cosSim (B := 16384) (D := 3072) (O := 300) (Glue.flatten (F := Ideal) x) (Glue.unitWeights1 (F := Ideal) w1))
          g1 b1)
        (Glue.unitWeights2 (F := Ideal) w2))
      g2 b2)
    w3

end Cert.Net

end
-- ==== Proof.KernelValue.lean ====
/-
  The kernel's program computes the network: the three regions' values, each a function of what its region found,
  composed through the host stretches between them.

  Region 0 finds the flattened images and the first layer's unit-length weight rows (transposed, in bf16: read back
  with the coordinates exchanged they are the rows themselves, a change of float format being the identity on the
  extended reals) and leaves the first clamped-cosine layer; the stretch after it batch-normalises that and prepares
  the second layer's weights; region 1 leaves the second layer; the next stretch batch-normalises again and
  transposes the class weights; region 2 leaves their inner products with the activation's rows. An argument array
  is never written, so at every boundary it still holds what it was launched with.
-/
import proofs.«121544_j45629732553070_1_alg».proof.Proof.KernelHost
import proofs.«121544_j45629732553070_1_alg».proof.Proof.Region0
import proofs.«121544_j45629732553070_1_alg».proof.Proof.Region1
import proofs.«121544_j45629732553070_1_alg».proof.Proof.Region2
import proofs.«121544_j45629732553070_1_alg».proof.Proof.Net
import Idealize.ShloMosaic.Lib.ValueLayout

set_option maxRecDepth 16384

noncomputable section

namespace Cert.KernelIdeal.Whole

open Idealize.ShloMosaic Idealize.ShloMosaic.TcCoe Idealize.SL.Sem Idealize.ShloMosaic.StableHlo Idealize.ShloMosaic.ValueIdx
open Cert.KernelIdeal Cert.KernelIdeal.Gen

/-- A matrix transposed and narrowed to bf16, read with its coordinates exchanged, is the matrix. -/
theorem swapped_transposed {A B : ℕ} (Y : (⟨2, ![A, B]⟩ : Shape).Idx → EReal)
    (h : (⟨2, ![A, B]⟩ : Shape).Transposes [1, 0] ⟨2, ![B, A]⟩) (hb : FTy.bits .bf16 < FTy.bits .f32) :
    Spec.swapped (A := B) (B := A)
      (truncf .bf16 (transpose ⟨2, ![B, A]⟩ [1, 0] Y h : FVec Ideal ⟨2, ![B, A]⟩ .f32) hb : FVec Ideal ⟨2, ![B, A]⟩ .bf16) = Y := by
  funext i
  obtain ⟨a, b, rfl⟩ : ∃ (a : Fin A) (b : Fin B), i = ix2 a b := ⟨i 0, i 1, eq_ix2 i⟩
  exact transpose_ix2_apply Y h b a

variable (m : (ℓ : Loc nD τ sig) → Buf (Elt Ideal) ℓ) (ρ : Dev nD → PrngReg)

/-! ## The arguments at the boundaries -/

theorem at3_arg2 (c : Dev nD) : W3 m ρ c (Proc.devRef .tc main_arg2) = m ((c : Thread nD τ).loc main_arg2) :=
  HostValue.before0_arg2 (W0 m ρ c)
theorem at3_arg3 (c : Dev nD) : W3 m ρ c (Proc.devRef .tc main_arg3) = m ((c : Thread nD τ).loc main_arg3) :=
  HostValue.before0_arg3 (W0 m ρ c)
theorem at3_arg4 (c : Dev nD) : W3 m ρ c (Proc.devRef .tc main_arg4) = m ((c : Thread nD τ).loc main_arg4) :=
  HostValue.before0_arg4 (W0 m ρ c)
theorem at3_arg5 (c : Dev nD) : W3 m ρ c (Proc.devRef .tc main_arg5) = m ((c : Thread nD τ).loc main_arg5) :=
  HostValue.before0_arg5 (W0 m ρ c)
theorem at3_arg6 (c : Dev nD) : W3 m ρ c (Proc.devRef .tc main_arg6) = m ((c : Thread nD τ).loc main_arg6) :=
  HostValue.before0_arg6 (W0 m ρ c)
theorem at3_arg7 (c : Dev nD) : W3 m ρ c (Proc.devRef .tc main_arg7) = m ((c : Thread nD τ).loc main_arg7) :=
  HostValue.before0_arg7 (W0 m ρ c)
theorem at4_arg2 (c : Dev nD) : W4 m ρ c (Proc.devRef .tc main_arg2) = m ((c : Thread nD τ).loc main_arg2) :=
  (W4_of_ne m ρ c main_arg2 (by decide)).trans (at3_arg2 m ρ c)
theorem at4_arg3 (c : Dev nD) : W4 m ρ c (Proc.devRef .tc main_arg3) = m ((c : Thread nD τ).loc main_arg3) :=
  (W4_of_ne m ρ c main_arg3 (by decide)).trans (at3_arg3 m ρ c)
theorem at4_arg4 (c : Dev nD) : W4 m ρ c (Proc.devRef .tc main_arg4) = m ((c : Thread nD τ).loc main_arg4) :=
  (W4_of_ne m ρ c main_arg4 (by decide)).trans (at3_arg4 m ρ c)
theorem at4_arg5 (c : Dev nD) : W4 m ρ c (Proc.devRef .tc main_arg5) = m ((c : Thread nD τ).loc main_arg5) :=
  (W4_of_ne m ρ c main_arg5 (by decide)).trans (at3_arg5 m ρ c)
theorem at4_arg6 (c : Dev nD) : W4 m ρ c (Proc.devRef .tc main_arg6) = m ((c : Thread nD τ).loc main_arg6) :=
  (W4_of_ne m ρ c main_arg6 (by decide)).trans (at3_arg6 m ρ c)
theorem at4_arg7 (c : Dev nD) : W4 m ρ c (Proc.devRef .tc main_arg7) = m ((c : Thread nD τ).loc main_arg7) :=
  (W4_of_ne m ρ c main_arg7 (by decide)).trans (at3_arg7 m ρ c)
theorem at9_arg5 (c : Dev nD) : W9 m ρ c (Proc.devRef .tc main_arg5) = m ((c : Thread nD τ).loc main_arg5) :=
  (HostValue.before1_arg5 (W4 m ρ c)).trans (at4_arg5 m ρ c)
theorem at9_arg6 (c : Dev nD) : W9 m ρ c (Proc.devRef .tc main_arg6) = m ((c : Thread nD τ).loc main_arg6) :=
  (HostValue.before1_arg6 (W4 m ρ c)).trans (at4_arg6 m ρ c)
theorem at9_arg7 (c : Dev nD) : W9 m ρ c (Proc.devRef .tc main_arg7) = m ((c : Thread nD τ).loc main_arg7) :=
  (HostValue.before1_arg7 (W4 m ρ c)).trans (at4_arg7 m ρ c)
theorem at10_arg5 (c : Dev nD) : W10 m ρ c (Proc.devRef .tc main_arg5) = m ((c : Thread nD τ).loc main_arg5) :=
  (W10_of_ne m ρ c main_arg5 (by decide)).trans (at9_arg5 m ρ c)
theorem at10_arg6 (c : Dev nD) : W10 m ρ c (Proc.devRef .tc main_arg6) = m ((c : Thread nD τ).loc main_arg6) :=
  (W10_of_ne m ρ c main_arg6 (by decide)).trans (at9_arg6 m ρ c)
theorem at10_arg7 (c : Dev nD) : W10 m ρ c (Proc.devRef .tc main_arg7) = m ((c : Thread nD τ).loc main_arg7) :=
  (W10_of_ne m ρ c main_arg7 (by decide)).trans (at9_arg7 m ρ c)

/-! ## The values at the boundaries -/

/-- After region 0: the first clamped-cosine layer. -/
theorem act1 (c : Dev nD) : W4 m ρ c (Proc.devRef .tc main_v8)
    = Spec.cosSim (B := 16384) (D := 3072) (O := 300) (Glue.flatten (F := Ideal) (m ((c : Thread nD τ).loc main_arg0))) (Glue.unitWeights1 (F := Ideal) (m ((c : Thread nD τ).loc main_arg1))) := by
  refine ((W4_arr m ρ c 2).trans (RegionValue.region0 (V3 m ρ) c)).trans ?_
  exact congrArg₂ (Spec.cosSim (B := 16384) (D := 3072) (O := 300)) (HostValue.before0_images (W0 m ρ c))
    ((congrArg (Spec.swapped (A := 3072) (B := 300)) (HostValue.before0_weights (W0 m ρ c))).trans (swapped_transposed _ _ _))

/-- Before region 1: that layer, batch-normalised. -/
theorem hidden1 (c : Dev nD) : W9 m ρ c (Proc.devRef .tc main_v27)
    = Glue.batchNorm (F := Ideal) (Spec.cosSim (B := 16384) (D := 3072) (O := 300) (Glue.flatten (F := Ideal) (m ((c : Thread nD τ).loc main_arg0))) (Glue.unitWeights1 (F := Ideal) (m ((c : Thread nD τ).loc main_arg1)))) (m ((c : Thread nD τ).loc main_arg2)) (m ((c : Thread nD τ).loc main_arg3)) := by
  refine (HostValue.before1_hidden (W4 m ρ c)).trans ?_
  rw [act1 m ρ c, at4_arg2 m ρ c, at4_arg3 m ρ c]

/-- After region 1: the second clamped-cosine layer. -/
theorem act2 (c : Dev nD) : W10 m ρ c (Proc.devRef .tc main_v35)
    = Spec.cosSim (B := 16384) (D := 300) (O := 300)
        (Glue.batchNorm (F := Ideal) (Spec.cosSim (B := 16384) (D := 3072) (O := 300) (Glue.flatten (F := Ideal) (m ((c : Thread nD τ).loc main_arg0))) (Glue.unitWeights1 (F := Ideal) (m ((c : Thread nD τ).loc main_arg1)))) (m ((c : Thread nD τ).loc main_arg2)) (m ((c : Thread nD τ).loc main_arg3)))
        (Glue.unitWeights2 (F := Ideal) (m ((c : Thread nD τ).loc main_arg4))) := by
  refine ((W10_arr m ρ c 2).trans (RegionValue.region1 (V9 m ρ) c)).trans ?_
  refine congrArg₂ (Spec.cosSim (B := 16384) (D := 300) (O := 300)) (hidden1 m ρ c) ?_
  refine ((congrArg (Spec.swapped (A := 300) (B := 300)) (HostValue.before1_weights (W4 m ρ c))).trans (swapped_transposed _ _ _)).trans ?_
  rw [at4_arg4 m ρ c]

/-- Before region 2: that layer, batch-normalised. -/
theorem hidden2 (c : Dev nD) : W13 m ρ c (Proc.devRef .tc main_v54)
    = Glue.batchNorm (F := Ideal) (Spec.cosSim (B := 16384) (D := 300) (O := 300)
        (Glue.batchNorm (F := Ideal) (Spec.cosSim (B := 16384) (D := 3072) (O := 300) (Glue.flatten (F := Ideal) (m ((c : Thread nD τ).loc main_arg0))) (Glue.unitWeights1 (F := Ideal) (m ((c : Thread nD τ).loc main_arg1)))) (m ((c : Thread nD τ).loc main_arg2)) (m ((c : Thread nD τ).loc main_arg3)))
        (Glue.unitWeights2 (F := Ideal) (m ((c : Thread nD τ).loc main_arg4)))) (m ((c : Thread nD τ).loc main_arg5)) (m ((c : Thread nD τ).loc main_arg6)) := by
  refine (HostValue.before2_hidden (W10 m ρ c)).trans ?_
  rw [act2 m ρ c, at10_arg5 m ρ c, at10_arg6 m ρ c]

/-- After region 2, the result array: the network of the arguments. -/
theorem out_eq (c : Dev nD) : W14 m ρ c (Proc.devRef .tc main_v57)
    = Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W14_arr m ρ c 2).trans (RegionValue.region2 (V13 m ρ) c)).trans ?_
  unfold Net.net
  refine congrArg₂ (Spec.dotRows (B := 16384) (D := 300) (O := 10)) (hidden2 m ρ c) ?_
  refine ((congrArg (Spec.swapped (A := 300) (B := 10)) (HostValue.before2_weights (W10 m ρ c))).trans (swapped_transposed _ _ _)).trans ?_
  rw [at10_arg7 m ρ c]

end Cert.KernelIdeal.Whole

end
-- ==== Proof.RefDefs.lean ====
/-
  The reference's own stages, as functions of whole arrays, over the shared glue.

  A layer of the reference scales each row of its input to unit length (`x / (√(∑ x²) + ε)`, the sum along the row),
  takes the inner products of those rows with the rows of the (already unit-length) weights — a `dot_general`
  contracting the second axis of both operands — and clamps to `[0, 1]` (maximum with 0, then minimum with 1).
  The last layer is the bare `dot_general`. `out` composes them with the batch normalisations in between.
-/
import proofs.«121544_j45629732553070_1_alg».proof.Proof.Gen.ReferenceIdeal
import proofs.«121544_j45629732553070_1_alg».proof.Proof.Glue

noncomputable section

namespace Cert.ReferenceIdeal.RefValue

open Idealize.ShloMosaic Cert.ReferenceIdeal Cert.ReferenceIdeal.Facts₀

variable {F : FTy → Type} [FloatOps F]

/-- The rows of the flattened images, each divided by its norm plus `ε`. -/
def unitRows1 (X : FVec F S16384x3072 .f32) : FVec F S16384x3072 .f32 :=
  Host.divf X (broadcastInDim S16384x3072 ![0, 1] bcast_S16384x1_S16384x3072_0_1
    (addf (Host.sqrt (broadcastInDim S16384x1 ![0] bcast_S16384_S16384x1_0
        (Host.reduceAdd (mulf X X) (constant S_ .f32 0x00000000#32) reducesTo_S16384x3072_S16384_d1 h_S_)))
      (broadcastInDim S16384x1 ![] bcast_S_S16384x1 (constant S_ .f32 0x2B8CBCCC#32))))

/-- The rows of a hidden activation, each divided by its norm plus `ε`. -/
def unitRows2 (X : FVec F S16384x300 .f32) : FVec F S16384x300 .f32 :=
  Host.divf X (broadcastInDim S16384x300 ![0, 1] bcast_S16384x1_S16384x300_0_1
    (addf (Host.sqrt (broadcastInDim S16384x1 ![0] bcast_S16384_S16384x1_0
        (Host.reduceAdd (mulf X X) (constant S_ .f32 0x00000000#32) reducesTo_S16384x300_S16384_d1 h_S_)))
      (broadcastInDim S16384x1 ![] bcast_S_S16384x1 (constant S_ .f32 0x2B8CBCCC#32))))

/-- Clamping to `[0, 1]`: the maximum with zero, then the minimum with one. -/
def clip01 (Y : FVec F S16384x300 .f32) : FVec F S16384x300 .f32 :=
  minimumf (broadcastInDim S16384x300 ![] bcast_S_S16384x300 (id (constant S_ .f32 0x3F800000#32)))
    (maximumf (broadcastInDim S16384x300 ![] bcast_S_S16384x300 (id (constant S_ .f32 0x00000000#32))) Y)

/-- The first layer: clamped inner products of the unit-length image rows with the weight rows. -/
def layer1 (X : FVec F S16384x3072 .f32) (Wn : FVec F S300x3072 .f32) : FVec F S16384x300 .f32 :=
  clip01 (Host.dotGeneral dot_S16384x3072_S300x3072_S16384x300_1_1_0_0_n_n none (unitRows1 X) Wn)

/-- The second layer, the same over the hidden width. -/
def layer2 (X : FVec F S16384x300 .f32) (Wn : FVec F S300x300 .f32) : FVec F S16384x300 .f32 :=
  clip01 (Host.dotGeneral dot_S16384x300_S300x300_S16384x300_1_1_0_0_n_n none (unitRows2 X) Wn)

/-- The last layer: inner products of the activation rows with the class weights' rows. -/
def layer3 (H : FVec F S16384x300 .f32) (W : FVec F S10x300 .f32) : FVec F S16384x10 .f32 :=
  Host.dotGeneral dot_S16384x300_S10x300_S16384x10_1_1_0_0_n_n none H W

/-- The whole reference as one function of its eight arguments. -/
def out (x : FVec F S16384x3x32x32 .f32) (w1 : FVec F S300x3072 .f32) (g1 b1 : FVec F S300 .f32)
    (w2 : FVec F S300x300 .f32) (g2 b2 : FVec F S300 .f32) (w3 : FVec F S10x300 .f32) : FVec F S16384x10 .f32 :=
  layer3 (Glue.batchNorm (layer2 (Glue.batchNorm (layer1 (Glue.flatten x) (Glue.unitWeights1 w1)) g1 b1) (Glue.unitWeights2 w2)) g2 b2) w3

end Cert.ReferenceIdeal.RefValue

end
-- ==== Proof.RefRun.lean ====
/-
  The reference's run read back: every execution ends with the result array at `RefValue.out` of the arguments.

  The reference has no kernel: its run is the straight line of its operations, the calls of its module-local
  functions unfolded at their call sites (each value of an unfolded body has a buffer of its own). The line is cut
  at the stages of the network: the first layer (flatten the images, scale the rows of images and weights to unit
  length, contract, clamp), the first batch normalisation (column mean and variance over the batch, scale and
  shift), the second layer, the second batch normalisation, and the last contraction with the class weights.
  Each stretch is read from an arbitrary valuation of the buffers: its result buffer holds the stage's function of
  the buffers it reads, and it leaves the eight argument buffers as they were. Composing the stretches in order
  gives `out` of the arguments at the last result buffer.
-/
import proofs.«121544_j45629732553070_1_alg».proof.Proof.RefDefs
import Idealize.ShloMosaic.Lib.StableHlo.Run
import Idealize.ShloMosaic.Lib.Pipeline.Regions

noncomputable section

namespace Cert.ReferenceIdeal.RefValue

open Idealize.ShloMosaic Idealize.ShloMosaic.TcCoe Idealize.SL.Sem Idealize.ShloMosaic.StableHlo
open Cert.ReferenceIdeal Cert.ReferenceIdeal.Gen

variable {F : FTy → Type} [FloatOps F]

/-! ## The operations, stage by stage -/

/-- The first layer, 30 operations: the images flattened; the sum of squares along each image row, its root plus `ε`, the row divided by it; the same for the rows of the first weights; the contraction of the two over the 3072 coordinates; the maximum with zero and the minimum with one. -/
abbrev opsA : List (HloOp τ sig (Elt F)) :=
  [ StableHlo.reshape main_arg0 main_v0 rfl shapeCasts_S16384x3x32x32_S16384x3072,
    StableHlo.TRef.binary (.of main_v0 : StableHlo.TRef sig ⟨S16384x3072, .f32⟩) (.of main_v0 : StableHlo.TRef sig ⟨S16384x3072, .f32⟩) (.of main_call0_v0 : StableHlo.TRef sig ⟨S16384x3072, .f32⟩) mulf,
    StableHlo.TRef.nullary (.of main_call0_cst : StableHlo.TRef sig ⟨S_, .f32⟩) (constant S_ .f32 0x00000000#32),
    StableHlo.TRef.binary (.of main_call0_v0 : StableHlo.TRef sig ⟨S16384x3072, .f32⟩) (.of main_call0_cst : StableHlo.TRef sig ⟨S_, .f32⟩) (.of main_call0_v1 : StableHlo.TRef sig ⟨S16384, .f32⟩) (fun x v => Host.reduceAdd x v reducesTo_S16384x3072_S16384_d1 h_S_),
    StableHlo.TRef.unary (.of main_call0_v1 : StableHlo.TRef sig ⟨S16384, .f32⟩) (.of main_call0_v2 : StableHlo.TRef sig ⟨S16384x1, .f32⟩) (broadcastInDim S16384x1 ![0] bcast_S16384_S16384x1_0),
    StableHlo.TRef.unary (.of main_call0_v2 : StableHlo.TRef sig ⟨S16384x1, .f32⟩) (.of main_v1 : StableHlo.TRef sig ⟨S16384x1, .f32⟩) Host.sqrt,
    StableHlo.nullary main_cst (constant S_ .f32 0x2B8CBCCC#32),
    StableHlo.unary main_cst main_v2 (broadcastInDim S16384x1 ![] bcast_S_S16384x1 : (⟨S_, .f32⟩ : BufTy).Contents (Elt F) → (⟨S16384x1, .f32⟩ : BufTy).Contents (Elt F)),
    StableHlo.binary main_v1 main_v2 main_v3 (addf : (⟨S16384x1, .f32⟩ : BufTy).Contents (Elt F) → (⟨S16384x1, .f32⟩ : BufTy).Contents (Elt F) → (⟨S16384x1, .f32⟩ : BufTy).Contents (Elt F)),
    StableHlo.unary main_v3 main_v4 (broadcastInDim S16384x3072 ![0, 1] bcast_S16384x1_S16384x3072_0_1 : (⟨S16384x1, .f32⟩ : BufTy).Contents (Elt F) → (⟨S16384x3072, .f32⟩ : BufTy).Contents (Elt F)),
    StableHlo.binary main_v0 main_v4 main_v5 (Host.divf : (⟨S16384x3072, .f32⟩ : BufTy).Contents (Elt F) → (⟨S16384x3072, .f32⟩ : BufTy).Contents (Elt F) → (⟨S16384x3072, .f32⟩ : BufTy).Contents (Elt F)),
    StableHlo.TRef.binary (.of main_arg1 : StableHlo.TRef sig ⟨S300x3072, .f32⟩) (.of main_arg1 : StableHlo.TRef sig ⟨S300x3072, .f32⟩) (.of main_call1_v0 : StableHlo.TRef sig ⟨S300x3072, .f32⟩) mulf,
    StableHlo.TRef.nullary (.of main_call1_cst : StableHlo.TRef sig ⟨S_, .f32⟩) (constant S_ .f32 0x00000000#32),
    StableHlo.TRef.binary (.of main_call1_v0 : StableHlo.TRef sig ⟨S300x3072, .f32⟩) (.of main_call1_cst : StableHlo.TRef sig ⟨S_, .f32⟩) (.of main_call1_v1 : StableHlo.TRef sig ⟨S300, .f32⟩) (fun x v => Host.reduceAdd x v reducesTo_S300x3072_S300_d1 h_S_),
    StableHlo.TRef.unary (.of main_call1_v1 : StableHlo.TRef sig ⟨S300, .f32⟩) (.of main_call1_v2 : StableHlo.TRef sig ⟨S300x1, .f32⟩) (broadcastInDim S300x1 ![0] bcast_S300_S300x1_0),
    StableHlo.TRef.unary (.of main_call1_v2 : StableHlo.TRef sig ⟨S300x1, .f32⟩) (.of main_v6 : StableHlo.TRef sig ⟨S300x1, .f32⟩) Host.sqrt,
    StableHlo.nullary main_cst_0 (constant S_ .f32 0x2B8CBCCC#32),
    StableHlo.unary main_cst_0 main_v7 (broadcastInDim S300x1 ![] bcast_S_S300x1 : (⟨S_, .f32⟩ : BufTy).Contents (Elt F) → (⟨S300x1, .f32⟩ : BufTy).Contents (Elt F)),
    StableHlo.binary main_v6 main_v7 main_v8 (addf : (⟨S300x1, .f32⟩ : BufTy).Contents (Elt F) → (⟨S300x1, .f32⟩ : BufTy).Contents (Elt F) → (⟨S300x1, .f32⟩ : BufTy).Contents (Elt F)),
    StableHlo.unary main_v8 main_v9 (broadcastInDim S300x3072 ![0, 1] bcast_S300x1_S300x3072_0_1 : (⟨S300x1, .f32⟩ : BufTy).Contents (Elt F) → (⟨S300x3072, .f32⟩ : BufTy).Contents (Elt F)),
    StableHlo.binary main_arg1 main_v9 main_v10 (Host.divf : (⟨S300x3072, .f32⟩ : BufTy).Contents (Elt F) → (⟨S300x3072, .f32⟩ : BufTy).Contents (Elt F) → (⟨S300x3072, .f32⟩ : BufTy).Contents (Elt F)),
    StableHlo.binary main_v5 main_v10 main_v11 ((fun l r => Host.dotGeneral dot_S16384x3072_S300x3072_S16384x300_1_1_0_0_n_n none l r) : (⟨S16384x3072, .f32⟩ : BufTy).Contents (Elt F) → (⟨S300x3072, .f32⟩ : BufTy).Contents (Elt F) → (⟨S16384x300, .f32⟩ : BufTy).Contents (Elt F)),
    StableHlo.nullary main_cst_1 (constant S_ .f32 0x00000000#32),
    StableHlo.nullary main_cst_2 (constant S_ .f32 0x3F800000#32),
    StableHlo.TRef.unary (.of main_cst_1 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S16384x300, .f32⟩) (broadcastInDim S16384x300 ![] bcast_S_S16384x300),
    StableHlo.TRef.binary (.of main_call2_v1 : StableHlo.TRef sig ⟨S16384x300, .f32⟩) (.of main_v11 : StableHlo.TRef sig ⟨S16384x300, .f32⟩) (.of main_call2_v2 : StableHlo.TRef sig ⟨S16384x300, .f32⟩) maximumf,
    StableHlo.TRef.unary (.of main_cst_2 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S16384x300, .f32⟩) (broadcastInDim S16384x300 ![] bcast_S_S16384x300),
    StableHlo.TRef.binary (.of main_call2_v4 : StableHlo.TRef sig ⟨S16384x300, .f32⟩) (.of main_call2_v2 : StableHlo.TRef sig ⟨S16384x300, .f32⟩) (.of main_v12 : StableHlo.TRef sig ⟨S16384x300, .f32⟩) minimumf ]

/-- The first batch normalisation, 44 operations: the column sums over the batch divided by the batch size (the mean); the variance (the mean of the squared deviations, selected where the count is positive); the deviation from the mean times the reciprocal root of the variance plus `1e-5`, times the scale, plus the shift, each column statistic broadcast over the batch. -/
abbrev opsB : List (HloOp τ sig (Elt F)) :=
  [ StableHlo.nullary main_cst_3 (constant S_ .f32 0x00000000#32),
    StableHlo.binary main_v12 main_cst_3 main_v13 ((fun x v => Host.reduceAdd x v reducesTo_S16384x300_S300_d0 h_S_) : (⟨S16384x300, .f32⟩ : BufTy).Contents (Elt F) → (⟨S_, .f32⟩ : BufTy).Contents (Elt F) → (⟨S300, .f32⟩ : BufTy).Contents (Elt F)),
    StableHlo.nullary main_cst_4 (constant S_ .f32 0x46800000#32),
    StableHlo.unary main_cst_4 main_v14 (broadcastInDim S300 ![] bcast_S_S300 : (⟨S_, .f32⟩ : BufTy).Contents (Elt F) → (⟨S300, .f32⟩ : BufTy).Contents (Elt F)),
    StableHlo.binary main_v13 main_v14 main_v15 (Host.divf : (⟨S300, .f32⟩ : BufTy).Contents (Elt F) → (⟨S300, .f32⟩ : BufTy).Contents (Elt F) → (⟨S300, .f32⟩ : BufTy).Contents (Elt F)),
    StableHlo.nullary main_c (constantI S_ 32 0#32),
    StableHlo.TRef.nullary (.of main_call3_cst : StableHlo.TRef sig ⟨S_, .f32⟩) (constant S_ .f32 0x00000000#32),
    StableHlo.TRef.binary (.of main_v12 : StableHlo.TRef sig ⟨S16384x300, .f32⟩) (.of main_call3_cst : StableHlo.TRef sig ⟨S_, .f32⟩) (.of main_call3_v0 : StableHlo.TRef sig ⟨S300, .f32⟩) (fun x v => Host.reduceAdd x v reducesTo_S16384x300_S300_d0 h_S_),
    StableHlo.TRef.unary (.of main_call3_v0 : StableHlo.TRef sig ⟨S300, .f32⟩) (.of main_call3_v1 : StableHlo.TRef sig ⟨S1x300, .f32⟩) (broadcastInDim S1x300 ![1] bcast_S300_S1x300_1),
    StableHlo.TRef.nullary (.of main_call3_cst_0 : StableHlo.TRef sig ⟨S_, .f32⟩) (constant S_ .f32 0x46800000#32),
    StableHlo.TRef.unary (.of main_call3_cst_0 : StableHlo.TRef sig ⟨S_, .f32⟩) (.of main_call3_v2 : StableHlo.TRef sig ⟨S1x300, .f32⟩) (broadcastInDim S1x300 ![] bcast_S_S1x300),
    StableHlo.TRef.binary (.of main_call3_v1 : StableHlo.TRef sig ⟨S1x300, .f32⟩) (.of main_call3_v2 : StableHlo.TRef sig ⟨S1x300, .f32⟩) (.of main_call3_v3 : StableHlo.TRef sig ⟨S1x300, .f32⟩) Host.divf,
    StableHlo.TRef.unary (.of main_call3_v3 : StableHlo.TRef sig ⟨S1x300, .f32⟩) (.of main_call3_v4 : StableHlo.TRef sig ⟨S16384x300, .f32⟩) (broadcastInDim S16384x300 ![0, 1] bcast_S1x300_S16384x300_0_1),
    StableHlo.TRef.binary (.of main_v12 : StableHlo.TRef sig ⟨S16384x300, .f32⟩) (.of main_call3_v4 : StableHlo.TRef sig ⟨S16384x300, .f32⟩) (.of main_call3_v5 : StableHlo.TRef sig ⟨S16384x300, .f32⟩) subf,
    StableHlo.TRef.binary (.of main_call3_v5 : StableHlo.TRef sig ⟨S16384x300, .f32⟩) (.of main_call3_v5 : StableHlo.TRef sig ⟨S16384x300, .f32⟩) (.of main_call3_v6 : StableHlo.TRef sig ⟨S16384x300, .f32⟩) mulf,
    StableHlo.TRef.unary (.of main_c : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x46800000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S16384x300, .f32⟩) (.of main_call3_cst_2 : StableHlo.TRef sig ⟨S_, .f32⟩) (.of main_call3_v9 : StableHlo.TRef sig ⟨S300, .f32⟩) (fun x v => Host.reduceAdd x v reducesTo_S16384x300_S300_d0 h_S_),
    StableHlo.TRef.unary (.of main_call3_v8 : StableHlo.TRef sig ⟨S_, .f32⟩) (.of main_call3_v10 : StableHlo.TRef sig ⟨S300, .f32⟩) (broadcastInDim S300 ![] bcast_S_S300),
    StableHlo.TRef.binary (.of main_call3_v9 : StableHlo.TRef sig ⟨S300, .f32⟩) (.of main_call3_v10 : StableHlo.TRef sig ⟨S300, .f32⟩) (.of main_call3_v11 : StableHlo.TRef sig ⟨S300, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S300, .f32⟩) (broadcastInDim S300 ![] bcast_S_S300),
    StableHlo.TRef.ternary (.of main_call3_v12 : StableHlo.TRef sig ⟨S_, .i1⟩) (.of main_call3_v11 : StableHlo.TRef sig ⟨S300, .f32⟩) (.of main_call3_call0_v1 : StableHlo.TRef sig ⟨S300, .f32⟩) (.of main_v16 : StableHlo.TRef sig ⟨S300, .f32⟩) (fun p a b => select (broadcastInDim S300 ![] bcast_S_S300 p) a b),
    StableHlo.unary main_v15 main_v17 (broadcastInDim S1x300 ![1] bcast_S300_S1x300_1 : (⟨S300, .f32⟩ : BufTy).Contents (Elt F) → (⟨S1x300, .f32⟩ : BufTy).Contents (Elt F)),
    StableHlo.unary main_v17 main_v18 (broadcastInDim S16384x300 ![0, 1] bcast_S1x300_S16384x300_0_1 : (⟨S1x300, .f32⟩ : BufTy).Contents (Elt F) → (⟨S16384x300, .f32⟩ : BufTy).Contents (Elt F)),
    StableHlo.binary main_v12 main_v18 main_v19 (subf : (⟨S16384x300, .f32⟩ : BufTy).Contents (Elt F) → (⟨S16384x300, .f32⟩ : BufTy).Contents (Elt F) → (⟨S16384x300, .f32⟩ : BufTy).Contents (Elt F)),
    StableHlo.nullary main_cst_5 (constant S_ .f32 0x3727C5AC#32),
    StableHlo.unary main_cst_5 main_v20 (broadcastInDim S300 ![] bcast_S_S300 : (⟨S_, .f32⟩ : BufTy).Contents (Elt F) → (⟨S300, .f32⟩ : BufTy).Contents (Elt F)),
    StableHlo.binary main_v16 main_v20 main_v21 (addf : (⟨S300, .f32⟩ : BufTy).Contents (Elt F) → (⟨S300, .f32⟩ : BufTy).Contents (Elt F) → (⟨S300, .f32⟩ : BufTy).Contents (Elt F)),
    StableHlo.unary main_v21 main_v22 (Host.rsqrt : (⟨S300, .f32⟩ : BufTy).Contents (Elt F) → (⟨S300, .f32⟩ : BufTy).Contents (Elt F)),
    StableHlo.unary main_v22 main_v23 (broadcastInDim S1x300 ![1] bcast_S300_S1x300_1 : (⟨S300, .f32⟩ : BufTy).Contents (Elt F) → (⟨S1x300, .f32⟩ : BufTy).Contents (Elt F)),
    StableHlo.unary main_v23 main_v24 (broadcastInDim S16384x300 ![0, 1] bcast_S1x300_S16384x300_0_1 : (⟨S1x300, .f32⟩ : BufTy).Contents (Elt F) → (⟨S16384x300, .f32⟩ : BufTy).Contents (Elt F)),
    StableHlo.binary main_v19 main_v24 main_v25 (mulf : (⟨S16384x300, .f32⟩ : BufTy).Contents (Elt F) → (⟨S16384x300, .f32⟩ : BufTy).Contents (Elt F) → (⟨S16384x300, .f32⟩ : BufTy).Contents (Elt F)),
    StableHlo.unary main_arg2 main_v26 (broadcastInDim S1x300 ![1] bcast_S300_S1x300_1 : (⟨S300, .f32⟩ : BufTy).Contents (Elt F) → (⟨S1x300, .f32⟩ : BufTy).Contents (Elt F)),
    StableHlo.unary main_v26 main_v27 (broadcastInDim S16384x300 ![0, 1] bcast_S1x300_S16384x300_0_1 : (⟨S1x300, .f32⟩ : BufTy).Contents (Elt F) → (⟨S16384x300, .f32⟩ : BufTy).Contents (Elt F)),
    StableHlo.binary main_v25 main_v27 main_v28 (mulf : (⟨S16384x300, .f32⟩ : BufTy).Contents (Elt F) → (⟨S16384x300, .f32⟩ : BufTy).Contents (Elt F) → (⟨S16384x300, .f32⟩ : BufTy).Contents (Elt F)),
    StableHlo.unary main_arg3 main_v29 (broadcastInDim S1x300 ![1] bcast_S300_S1x300_1 : (⟨S300, .f32⟩ : BufTy).Contents (Elt F) → (⟨S1x300, .f32⟩ : BufTy).Contents (Elt F)),
    StableHlo.unary main_v29 main_v30 (broadcastInDim S16384x300 ![0, 1] bcast_S1x300_S16384x300_0_1 : (⟨S1x300, .f32⟩ : BufTy).Contents (Elt F) → (⟨S16384x300, .f32⟩ : BufTy).Contents (Elt F)),
    StableHlo.binary main_v28 main_v30 main_v31 (addf : (⟨S16384x300, .f32⟩ : BufTy).Contents (Elt F) → (⟨S16384x300, .f32⟩ : BufTy).Contents (Elt F) → (⟨S16384x300, .f32⟩ : BufTy).Contents (Elt F)) ]

/-- The second layer, 29 operations: as the first, over the hidden width (rows of the activation and of the second weights scaled to unit length, contracted over the 300 coordinates, clamped to `[0, 1]`). -/
abbrev opsC : List (HloOp τ sig (Elt F)) :=
  [ StableHlo.TRef.binary (.of main_v31 : StableHlo.TRef sig ⟨S16384x300, .f32⟩) (.of main_v31 : StableHlo.TRef sig ⟨S16384x300, .f32⟩) (.of main_call4_v0 : StableHlo.TRef sig ⟨S16384x300, .f32⟩) mulf,
    StableHlo.TRef.nullary (.of main_call4_cst : StableHlo.TRef sig ⟨S_, .f32⟩) (constant S_ .f32 0x00000000#32),
    StableHlo.TRef.binary (.of main_call4_v0 : StableHlo.TRef sig ⟨S16384x300, .f32⟩) (.of main_call4_cst : StableHlo.TRef sig ⟨S_, .f32⟩) (.of main_call4_v1 : StableHlo.TRef sig ⟨S16384, .f32⟩) (fun x v => Host.reduceAdd x v reducesTo_S16384x300_S16384_d1 h_S_),
    StableHlo.TRef.unary (.of main_call4_v1 : StableHlo.TRef sig ⟨S16384, .f32⟩) (.of main_call4_v2 : StableHlo.TRef sig ⟨S16384x1, .f32⟩) (broadcastInDim S16384x1 ![0] bcast_S16384_S16384x1_0),
    StableHlo.TRef.unary (.of main_call4_v2 : StableHlo.TRef sig ⟨S16384x1, .f32⟩) (.of main_v32 : StableHlo.TRef sig ⟨S16384x1, .f32⟩) Host.sqrt,
    StableHlo.nullary main_cst_6 (constant S_ .f32 0x2B8CBCCC#32),
    StableHlo.unary main_cst_6 main_v33 (broadcastInDim S16384x1 ![] bcast_S_S16384x1 : (⟨S_, .f32⟩ : BufTy).Contents (Elt F) → (⟨S16384x1, .f32⟩ : BufTy).Contents (Elt F)),
    StableHlo.binary main_v32 main_v33 main_v34 (addf : (⟨S16384x1, .f32⟩ : BufTy).Contents (Elt F) → (⟨S16384x1, .f32⟩ : BufTy).Contents (Elt F) → (⟨S16384x1, .f32⟩ : BufTy).Contents (Elt F)),
    StableHlo.unary main_v34 main_v35 (broadcastInDim S16384x300 ![0, 1] bcast_S16384x1_S16384x300_0_1 : (⟨S16384x1, .f32⟩ : BufTy).Contents (Elt F) → (⟨S16384x300, .f32⟩ : BufTy).Contents (Elt F)),
    StableHlo.binary main_v31 main_v35 main_v36 (Host.divf : (⟨S16384x300, .f32⟩ : BufTy).Contents (Elt F) → (⟨S16384x300, .f32⟩ : BufTy).Contents (Elt F) → (⟨S16384x300, .f32⟩ : BufTy).Contents (Elt F)),
    StableHlo.TRef.binary (.of main_arg4 : StableHlo.TRef sig ⟨S300x300, .f32⟩) (.of main_arg4 : StableHlo.TRef sig ⟨S300x300, .f32⟩) (.of main_call5_v0 : StableHlo.TRef sig ⟨S300x300, .f32⟩) mulf,
    StableHlo.TRef.nullary (.of main_call5_cst : StableHlo.TRef sig ⟨S_, .f32⟩) (constant S_ .f32 0x00000000#32),
    StableHlo.TRef.binary (.of main_call5_v0 : StableHlo.TRef sig ⟨S300x300, .f32⟩) (.of main_call5_cst : StableHlo.TRef sig ⟨S_, .f32⟩) (.of main_call5_v1 : StableHlo.TRef sig ⟨S300, .f32⟩) (fun x v => Host.reduceAdd x v reducesTo_S300x300_S300_d1 h_S_),
    StableHlo.TRef.unary (.of main_call5_v1 : StableHlo.TRef sig ⟨S300, .f32⟩) (.of main_call5_v2 : StableHlo.TRef sig ⟨S300x1, .f32⟩) (broadcastInDim S300x1 ![0] bcast_S300_S300x1_0),
    StableHlo.TRef.unary (.of main_call5_v2 : StableHlo.TRef sig ⟨S300x1, .f32⟩) (.of main_v37 : StableHlo.TRef sig ⟨S300x1, .f32⟩) Host.sqrt,
    StableHlo.nullary main_cst_7 (constant S_ .f32 0x2B8CBCCC#32),
    StableHlo.unary main_cst_7 main_v38 (broadcastInDim S300x1 ![] bcast_S_S300x1 : (⟨S_, .f32⟩ : BufTy).Contents (Elt F) → (⟨S300x1, .f32⟩ : BufTy).Contents (Elt F)),
    StableHlo.binary main_v37 main_v38 main_v39 (addf : (⟨S300x1, .f32⟩ : BufTy).Contents (Elt F) → (⟨S300x1, .f32⟩ : BufTy).Contents (Elt F) → (⟨S300x1, .f32⟩ : BufTy).Contents (Elt F)),
    StableHlo.unary main_v39 main_v40 (broadcastInDim S300x300 ![0, 1] bcast_S300x1_S300x300_0_1 : (⟨S300x1, .f32⟩ : BufTy).Contents (Elt F) → (⟨S300x300, .f32⟩ : BufTy).Contents (Elt F)),
    StableHlo.binary main_arg4 main_v40 main_v41 (Host.divf : (⟨S300x300, .f32⟩ : BufTy).Contents (Elt F) → (⟨S300x300, .f32⟩ : BufTy).Contents (Elt F) → (⟨S300x300, .f32⟩ : BufTy).Contents (Elt F)),
    StableHlo.binary main_v36 main_v41 main_v42 ((fun l r => Host.dotGeneral dot_S16384x300_S300x300_S16384x300_1_1_0_0_n_n none l r) : (⟨S16384x300, .f32⟩ : BufTy).Contents (Elt F) → (⟨S300x300, .f32⟩ : BufTy).Contents (Elt F) → (⟨S16384x300, .f32⟩ : BufTy).Contents (Elt F)),
    StableHlo.nullary main_cst_8 (constant S_ .f32 0x00000000#32),
    StableHlo.nullary main_cst_9 (constant S_ .f32 0x3F800000#32),
    StableHlo.TRef.unary (.of main_cst_8 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S16384x300, .f32⟩) (broadcastInDim S16384x300 ![] bcast_S_S16384x300),
    StableHlo.TRef.binary (.of main_call6_v1 : StableHlo.TRef sig ⟨S16384x300, .f32⟩) (.of main_v42 : StableHlo.TRef sig ⟨S16384x300, .f32⟩) (.of main_call6_v2 : StableHlo.TRef sig ⟨S16384x300, .f32⟩) maximumf,
    StableHlo.TRef.unary (.of main_cst_9 : StableHlo.TRef sig ⟨S_, .f32⟩) (.of main_call6_v3 : StableHlo.TRef sig ⟨S_, .f32⟩) id,
    StableHlo.TRef.unary (.of main_call6_v3 : StableHlo.TRef sig ⟨S_, .f32⟩) (.of main_call6_v4 : StableHlo.TRef sig ⟨S16384x300, .f32⟩) (broadcastInDim S16384x300 ![] bcast_S_S16384x300),
    StableHlo.TRef.binary (.of main_call6_v4 : StableHlo.TRef sig ⟨S16384x300, .f32⟩) (.of main_call6_v2 : StableHlo.TRef sig ⟨S16384x300, .f32⟩) (.of main_v43 : StableHlo.TRef sig ⟨S16384x300, .f32⟩) minimumf ]

/-- The second batch normalisation's first four operations: the column sums of the second layer's result and the batch size broadcast over the columns. -/
abbrev opsD0 : List (HloOp τ sig (Elt F)) :=
  [ StableHlo.nullary main_cst_10 (constant S_ .f32 0x00000000#32),
    StableHlo.binary main_v43 main_cst_10 main_v44 ((fun x v => Host.reduceAdd x v reducesTo_S16384x300_S300_d0 h_S_) : (⟨S16384x300, .f32⟩ : BufTy).Contents (Elt F) → (⟨S_, .f32⟩ : BufTy).Contents (Elt F) → (⟨S300, .f32⟩ : BufTy).Contents (Elt F)),
    StableHlo.nullary main_cst_11 (constant S_ .f32 0x46800000#32),
    StableHlo.unary main_cst_11 main_v45 (broadcastInDim S300 ![] bcast_S_S300 : (⟨S_, .f32⟩ : BufTy).Contents (Elt F) → (⟨S300, .f32⟩ : BufTy).Contents (Elt F)) ]

/-- The rest of the second batch normalisation, 40 operations: the mean, the variance, and the normalised, scaled and shifted activation. -/
abbrev opsD1 : List (HloOp τ sig (Elt F)) :=
  [ StableHlo.binary main_v44 main_v45 main_v46 (Host.divf : (⟨S300, .f32⟩ : BufTy).Contents (Elt F) → (⟨S300, .f32⟩ : BufTy).Contents (Elt F) → (⟨S300, .f32⟩ : BufTy).Contents (Elt F)),
    StableHlo.nullary main_c_12 (constantI S_ 32 0#32),
    StableHlo.TRef.nullary (.of main_call7_cst : StableHlo.TRef sig ⟨S_, .f32⟩) (constant S_ .f32 0x00000000#32),
    StableHlo.TRef.binary (.of main_v43 : StableHlo.TRef sig ⟨S16384x300, .f32⟩) (.of main_call7_cst : StableHlo.TRef sig ⟨S_, .f32⟩) (.of main_call7_v0 : StableHlo.TRef sig ⟨S300, .f32⟩) (fun x v => Host.reduceAdd x v reducesTo_S16384x300_S300_d0 h_S_),
    StableHlo.TRef.unary (.of main_call7_v0 : StableHlo.TRef sig ⟨S300, .f32⟩) (.of main_call7_v1 : StableHlo.TRef sig ⟨S1x300, .f32⟩) (broadcastInDim S1x300 ![1] bcast_S300_S1x300_1),
    StableHlo.TRef.nullary (.of main_call7_cst_0 : StableHlo.TRef sig ⟨S_, .f32⟩) (constant S_ .f32 0x46800000#32),
    StableHlo.TRef.unary (.of main_call7_cst_0 : StableHlo.TRef sig ⟨S_, .f32⟩) (.of main_call7_v2 : StableHlo.TRef sig ⟨S1x300, .f32⟩) (broadcastInDim S1x300 ![] bcast_S_S1x300),
    StableHlo.TRef.binary (.of main_call7_v1 : StableHlo.TRef sig ⟨S1x300, .f32⟩) (.of main_call7_v2 : StableHlo.TRef sig ⟨S1x300, .f32⟩) (.of main_call7_v3 : StableHlo.TRef sig ⟨S1x300, .f32⟩) Host.divf,
    StableHlo.TRef.unary (.of main_call7_v3 : StableHlo.TRef sig ⟨S1x300, .f32⟩) (.of main_call7_v4 : StableHlo.TRef sig ⟨S16384x300, .f32⟩) (broadcastInDim S16384x300 ![0, 1] bcast_S1x300_S16384x300_0_1),
    StableHlo.TRef.binary (.of main_v43 : StableHlo.TRef sig ⟨S16384x300, .f32⟩) (.of main_call7_v4 : StableHlo.TRef sig ⟨S16384x300, .f32⟩) (.of main_call7_v5 : StableHlo.TRef sig ⟨S16384x300, .f32⟩) subf,
    StableHlo.TRef.binary (.of main_call7_v5 : StableHlo.TRef sig ⟨S16384x300, .f32⟩) (.of main_call7_v5 : StableHlo.TRef sig ⟨S16384x300, .f32⟩) (.of main_call7_v6 : StableHlo.TRef sig ⟨S16384x300, .f32⟩) mulf,
    StableHlo.TRef.unary (.of main_c_12 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x46800000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S16384x300, .f32⟩) (.of main_call7_cst_2 : StableHlo.TRef sig ⟨S_, .f32⟩) (.of main_call7_v9 : StableHlo.TRef sig ⟨S300, .f32⟩) (fun x v => Host.reduceAdd x v reducesTo_S16384x300_S300_d0 h_S_),
    StableHlo.TRef.unary (.of main_call7_v8 : StableHlo.TRef sig ⟨S_, .f32⟩) (.of main_call7_v10 : StableHlo.TRef sig ⟨S300, .f32⟩) (broadcastInDim S300 ![] bcast_S_S300),
    StableHlo.TRef.binary (.of main_call7_v9 : StableHlo.TRef sig ⟨S300, .f32⟩) (.of main_call7_v10 : StableHlo.TRef sig ⟨S300, .f32⟩) (.of main_call7_v11 : StableHlo.TRef sig ⟨S300, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S300, .f32⟩) (broadcastInDim S300 ![] bcast_S_S300),
    StableHlo.TRef.ternary (.of main_call7_v12 : StableHlo.TRef sig ⟨S_, .i1⟩) (.of main_call7_v11 : StableHlo.TRef sig ⟨S300, .f32⟩) (.of main_call7_call0_v1 : StableHlo.TRef sig ⟨S300, .f32⟩) (.of main_v47 : StableHlo.TRef sig ⟨S300, .f32⟩) (fun p a b => select (broadcastInDim S300 ![] bcast_S_S300 p) a b),
    StableHlo.unary main_v46 main_v48 (broadcastInDim S1x300 ![1] bcast_S300_S1x300_1 : (⟨S300, .f32⟩ : BufTy).Contents (Elt F) → (⟨S1x300, .f32⟩ : BufTy).Contents (Elt F)),
    StableHlo.unary main_v48 main_v49 (broadcastInDim S16384x300 ![0, 1] bcast_S1x300_S16384x300_0_1 : (⟨S1x300, .f32⟩ : BufTy).Contents (Elt F) → (⟨S16384x300, .f32⟩ : BufTy).Contents (Elt F)),
    StableHlo.binary main_v43 main_v49 main_v50 (subf : (⟨S16384x300, .f32⟩ : BufTy).Contents (Elt F) → (⟨S16384x300, .f32⟩ : BufTy).Contents (Elt F) → (⟨S16384x300, .f32⟩ : BufTy).Contents (Elt F)),
    StableHlo.nullary main_cst_13 (constant S_ .f32 0x3727C5AC#32),
    StableHlo.unary main_cst_13 main_v51 (broadcastInDim S300 ![] bcast_S_S300 : (⟨S_, .f32⟩ : BufTy).Contents (Elt F) → (⟨S300, .f32⟩ : BufTy).Contents (Elt F)),
    StableHlo.binary main_v47 main_v51 main_v52 (addf : (⟨S300, .f32⟩ : BufTy).Contents (Elt F) → (⟨S300, .f32⟩ : BufTy).Contents (Elt F) → (⟨S300, .f32⟩ : BufTy).Contents (Elt F)),
    StableHlo.unary main_v52 main_v53 (Host.rsqrt : (⟨S300, .f32⟩ : BufTy).Contents (Elt F) → (⟨S300, .f32⟩ : BufTy).Contents (Elt F)),
    StableHlo.unary main_v53 main_v54 (broadcastInDim S1x300 ![1] bcast_S300_S1x300_1 : (⟨S300, .f32⟩ : BufTy).Contents (Elt F) → (⟨S1x300, .f32⟩ : BufTy).Contents (Elt F)),
    StableHlo.unary main_v54 main_v55 (broadcastInDim S16384x300 ![0, 1] bcast_S1x300_S16384x300_0_1 : (⟨S1x300, .f32⟩ : BufTy).Contents (Elt F) → (⟨S16384x300, .f32⟩ : BufTy).Contents (Elt F)),
    StableHlo.binary main_v50 main_v55 main_v56 (mulf : (⟨S16384x300, .f32⟩ : BufTy).Contents (Elt F) → (⟨S16384x300, .f32⟩ : BufTy).Contents (Elt F) → (⟨S16384x300, .f32⟩ : BufTy).Contents (Elt F)),
    StableHlo.unary main_arg5 main_v57 (broadcastInDim S1x300 ![1] bcast_S300_S1x300_1 : (⟨S300, .f32⟩ : BufTy).Contents (Elt F) → (⟨S1x300, .f32⟩ : BufTy).Contents (Elt F)),
    StableHlo.unary main_v57 main_v58 (broadcastInDim S16384x300 ![0, 1] bcast_S1x300_S16384x300_0_1 : (⟨S1x300, .f32⟩ : BufTy).Contents (Elt F) → (⟨S16384x300, .f32⟩ : BufTy).Contents (Elt F)),
    StableHlo.binary main_v56 main_v58 main_v59 (mulf : (⟨S16384x300, .f32⟩ : BufTy).Contents (Elt F) → (⟨S16384x300, .f32⟩ : BufTy).Contents (Elt F) → (⟨S16384x300, .f32⟩ : BufTy).Contents (Elt F)),
    StableHlo.unary main_arg6 main_v60 (broadcastInDim S1x300 ![1] bcast_S300_S1x300_1 : (⟨S300, .f32⟩ : BufTy).Contents (Elt F) → (⟨S1x300, .f32⟩ : BufTy).Contents (Elt F)),
    StableHlo.unary main_v60 main_v61 (broadcastInDim S16384x300 ![0, 1] bcast_S1x300_S16384x300_0_1 : (⟨S1x300, .f32⟩ : BufTy).Contents (Elt F) → (⟨S16384x300, .f32⟩ : BufTy).Contents (Elt F)),
    StableHlo.binary main_v59 main_v61 main_v62 (addf : (⟨S16384x300, .f32⟩ : BufTy).Contents (Elt F) → (⟨S16384x300, .f32⟩ : BufTy).Contents (Elt F) → (⟨S16384x300, .f32⟩ : BufTy).Contents (Elt F)) ]

/-- The last layer: the contraction of the activation rows with the class weights' rows over the 300 coordinates. -/
abbrev opsE : List (HloOp τ sig (Elt F)) :=
  [ StableHlo.binary main_v62 main_arg7 main_v63 ((fun l r => Host.dotGeneral dot_S16384x300_S10x300_S16384x10_1_1_0_0_n_n none l r) : (⟨S16384x300, .f32⟩ : BufTy).Contents (Elt F) → (⟨S10x300, .f32⟩ : BufTy).Contents (Elt F) → (⟨S16384x10, .f32⟩ : BufTy).Contents (Elt F)) ]

/-! ## Every operation touches TensorCore buffers only and determines its result -/

theorem opsA_ok : (opsA : List (HloOp τ sig (Elt F))).Forall fun op => op.bufs ⊆ tcRefs τ sig ∧ op.fresh = ∅ :=
  ⟨⟨reshape_bufs_sub .., rfl⟩, ⟨binary_bufs_sub .., rfl⟩, ⟨nullary_bufs_sub .., rfl⟩, ⟨binary_bufs_sub .., rfl⟩,
    ⟨unary_bufs_sub .., rfl⟩, ⟨unary_bufs_sub .., rfl⟩, ⟨nullary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩,
    ⟨nullary_bufs_sub .., rfl⟩, ⟨binary_bufs_sub .., rfl⟩, ⟨unary_bufs_sub .., rfl⟩, ⟨unary_bufs_sub .., rfl⟩,
    ⟨nullary_bufs_sub .., rfl⟩, ⟨unary_bufs_sub .., rfl⟩, ⟨binary_bufs_sub .., rfl⟩, ⟨unary_bufs_sub .., rfl⟩,
    ⟨binary_bufs_sub .., rfl⟩, ⟨binary_bufs_sub .., rfl⟩, ⟨nullary_bufs_sub .., rfl⟩, ⟨nullary_bufs_sub .., rfl⟩,
    ⟨unary_bufs_sub .., rfl⟩, ⟨unary_bufs_sub .., rfl⟩, ⟨binary_bufs_sub .., rfl⟩, ⟨unary_bufs_sub .., rfl⟩,
    ⟨unary_bufs_sub .., rfl⟩, ⟨binary_bufs_sub .., rfl⟩⟩

theorem opsB_ok : (opsB : List (HloOp τ sig (Elt F))).Forall fun op => op.bufs ⊆ tcRefs τ sig ∧ op.fresh = ∅ :=
  ⟨⟨nullary_bufs_sub .., rfl⟩, ⟨binary_bufs_sub .., rfl⟩, ⟨nullary_bufs_sub .., rfl⟩, ⟨unary_bufs_sub .., rfl⟩,
    ⟨binary_bufs_sub .., rfl⟩, ⟨nullary_bufs_sub .., rfl⟩, ⟨nullary_bufs_sub .., rfl⟩, ⟨binary_bufs_sub .., rfl⟩,
    ⟨unary_bufs_sub .., rfl⟩, ⟨nullary_bufs_sub .., rfl⟩, ⟨unary_bufs_sub .., rfl⟩, ⟨binary_bufs_sub .., rfl⟩,
    ⟨unary_bufs_sub .., rfl⟩, ⟨binary_bufs_sub .., rfl⟩, ⟨binary_bufs_sub .., rfl⟩, ⟨unary_bufs_sub .., rfl⟩,
    ⟨nullary_bufs_sub .., rfl⟩, ⟨binary_bufs_sub .., rfl⟩, ⟨nullary_bufs_sub .., rfl⟩, ⟨binary_bufs_sub .., rfl⟩,
    ⟨unary_bufs_sub .., rfl⟩, ⟨binary_bufs_sub .., rfl⟩, ⟨nullary_bufs_sub .., rfl⟩, ⟨binary_bufs_sub .., rfl⟩,
    ⟨nullary_bufs_sub .., rfl⟩, ⟨unary_bufs_sub .., rfl⟩, ⟨unary_bufs_sub .., rfl⟩, ⟨ternary_bufs_sub .., rfl⟩,
    ⟨unary_bufs_sub .., rfl⟩, ⟨unary_bufs_sub .., rfl⟩, ⟨binary_bufs_sub .., rfl⟩, ⟨nullary_bufs_sub .., rfl⟩,
    ⟨unary_bufs_sub .., rfl⟩, ⟨binary_bufs_sub .., rfl⟩, ⟨unary_bufs_sub .., rfl⟩, ⟨unary_bufs_sub .., rfl⟩,
    ⟨unary_bufs_sub .., rfl⟩, ⟨binary_bufs_sub .., rfl⟩, ⟨unary_bufs_sub .., rfl⟩, ⟨unary_bufs_sub .., rfl⟩,
    ⟨binary_bufs_sub .., rfl⟩, ⟨unary_bufs_sub .., rfl⟩, ⟨unary_bufs_sub .., rfl⟩, ⟨binary_bufs_sub .., rfl⟩⟩

theorem opsC_ok : (opsC : List (HloOp τ sig (Elt F))).Forall fun op => op.bufs ⊆ tcRefs τ sig ∧ op.fresh = ∅ :=
  ⟨⟨binary_bufs_sub .., rfl⟩, ⟨nullary_bufs_sub .., rfl⟩, ⟨binary_bufs_sub .., rfl⟩, ⟨unary_bufs_sub .., rfl⟩,
    ⟨unary_bufs_sub .., rfl⟩, ⟨nullary_bufs_sub .., rfl⟩, ⟨unary_bufs_sub .., rfl⟩, ⟨binary_bufs_sub .., rfl⟩,
    ⟨unary_bufs_sub .., rfl⟩, ⟨binary_bufs_sub .., rfl⟩, ⟨binary_bufs_sub .., rfl⟩, ⟨nullary_bufs_sub .., rfl⟩,
    ⟨binary_bufs_sub .., rfl⟩, ⟨unary_bufs_sub .., rfl⟩, ⟨unary_bufs_sub .., rfl⟩, ⟨nullary_bufs_sub .., rfl⟩,
    ⟨unary_bufs_sub .., rfl⟩, ⟨binary_bufs_sub .., rfl⟩, ⟨unary_bufs_sub .., rfl⟩, ⟨binary_bufs_sub .., rfl⟩,
    ⟨binary_bufs_sub .., rfl⟩, ⟨nullary_bufs_sub .., rfl⟩, ⟨nullary_bufs_sub .., rfl⟩, ⟨unary_bufs_sub .., rfl⟩,
    ⟨unary_bufs_sub .., rfl⟩, ⟨binary_bufs_sub .., rfl⟩, ⟨unary_bufs_sub .., rfl⟩, ⟨unary_bufs_sub .., rfl⟩,
    ⟨binary_bufs_sub .., rfl⟩⟩

theorem opsD0_ok : (opsD0 : List (HloOp τ sig (Elt F))).Forall fun op => op.bufs ⊆ tcRefs τ sig ∧ op.fresh = ∅ :=
  ⟨⟨nullary_bufs_sub .., rfl⟩, ⟨binary_bufs_sub .., rfl⟩, ⟨nullary_bufs_sub .., rfl⟩, ⟨unary_bufs_sub .., rfl⟩⟩

theorem opsD1_ok : (opsD1 : List (HloOp τ sig (Elt F))).Forall fun op => op.bufs ⊆ tcRefs τ sig ∧ op.fresh = ∅ :=
  ⟨⟨binary_bufs_sub .., rfl⟩, ⟨nullary_bufs_sub .., rfl⟩, ⟨nullary_bufs_sub .., rfl⟩, ⟨binary_bufs_sub .., rfl⟩,
    ⟨unary_bufs_sub .., rfl⟩, ⟨nullary_bufs_sub .., rfl⟩, ⟨unary_bufs_sub .., rfl⟩, ⟨binary_bufs_sub .., rfl⟩,
    ⟨unary_bufs_sub .., rfl⟩, ⟨binary_bufs_sub .., rfl⟩, ⟨binary_bufs_sub .., rfl⟩, ⟨unary_bufs_sub .., rfl⟩,
    ⟨nullary_bufs_sub .., rfl⟩, ⟨binary_bufs_sub .., rfl⟩, ⟨nullary_bufs_sub .., rfl⟩, ⟨binary_bufs_sub .., rfl⟩,
    ⟨unary_bufs_sub .., rfl⟩, ⟨binary_bufs_sub .., rfl⟩, ⟨nullary_bufs_sub .., rfl⟩, ⟨binary_bufs_sub .., rfl⟩,
    ⟨nullary_bufs_sub .., rfl⟩, ⟨unary_bufs_sub .., rfl⟩, ⟨unary_bufs_sub .., rfl⟩, ⟨ternary_bufs_sub .., rfl⟩,
    ⟨unary_bufs_sub .., rfl⟩, ⟨unary_bufs_sub .., rfl⟩, ⟨binary_bufs_sub .., rfl⟩, ⟨nullary_bufs_sub .., rfl⟩,
    ⟨unary_bufs_sub .., rfl⟩, ⟨binary_bufs_sub .., rfl⟩, ⟨unary_bufs_sub .., rfl⟩, ⟨unary_bufs_sub .., rfl⟩,
    ⟨unary_bufs_sub .., rfl⟩, ⟨binary_bufs_sub .., rfl⟩, ⟨unary_bufs_sub .., rfl⟩, ⟨unary_bufs_sub .., rfl⟩,
    ⟨binary_bufs_sub .., rfl⟩, ⟨unary_bufs_sub .., rfl⟩, ⟨unary_bufs_sub .., rfl⟩, ⟨binary_bufs_sub .., rfl⟩⟩

theorem opsE_ok : (opsE : List (HloOp τ sig (Elt F))).Forall fun op => op.bufs ⊆ tcRefs τ sig ∧ op.fresh = ∅ :=
  ⟨binary_bufs_sub .., rfl⟩

/-! ## The line is the program -/

/-- The first window of @main is the first three stages and the head of the fourth, in order: the functions' bodies
    unfolded at their calls, both sides are the same chain of steps. -/
theorem main_part0_eq (c : Dev nD) : main_part0 (F := F) c = seq (opsA ++ (opsB ++ (opsC ++ opsD0))) := by
  chain_rfl

/-- The second window is the rest of the fourth stage and the last contraction. -/
theorem main_part1_eq (c : Dev nD) : main_part1 (F := F) c = seq (opsD1 ++ opsE) := by
  chain_rfl

/-- The whole line: the two windows' operations, one after the other. -/
abbrev ops : List (HloOp τ sig (Elt F)) := (opsA ++ (opsB ++ (opsC ++ opsD0))) ++ (opsD1 ++ opsE)

theorem main_eq (c : Dev nD) : main (F := F) c = seq ops := by
  show (main_part0 (F := F) c >>= fun _ => main_part1 (F := F) c) = _
  rw [main_part0_eq, main_part1_eq, ← seq_append]

theorem ops_ok : (ops : List (HloOp τ sig (Elt F))).Forall fun op => op.bufs ⊆ tcRefs τ sig ∧ op.fresh = ∅ :=
  List.forall_append.2 ⟨List.forall_append.2 ⟨opsA_ok, List.forall_append.2 ⟨opsB_ok, List.forall_append.2 ⟨opsC_ok, opsD0_ok⟩⟩⟩,
    List.forall_append.2 ⟨opsD1_ok, opsE_ok⟩⟩

theorem scopedRefs_eq : (Finset.univ.filter fun b : Ref sig .tc => b.isScoped) = ∅ := by decide
theorem scopedSems_eq : (Finset.univ.filter fun sm : SemLoc sig => sm.isScoped .tc) = ∅ := by decide

/-! ## What each stretch leaves in the buffers -/

/-- Two stretches run one after the other: the second from what the first leaves. -/
private theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The whole line from `V`: the stretches in order, each from what the previous one leaves. -/
theorem after_ops (V : Valuation τ sig (Elt F)) :
    after ops V = after opsE (after opsD1 (after opsD0 (after opsC (after opsB (after opsA V))))) := by
  simp only [ops, after_append']

/-- The first layer's result buffer: `layer1` of the flattened images and the unit-length first weights. -/
theorem stageA (V : Valuation τ sig (Elt F)) :
    after opsA V (Proc.devRef .tc main_v12)
      = layer1 (Glue.flatten (V (Proc.devRef .tc main_arg0))) (Glue.unitWeights1 (V (Proc.devRef .tc main_arg1))) := by
  dsimp only [opsA]
  after_results_simp
  rfl

/-- The first batch normalisation's result buffer: `batchNorm` of the first layer's result with its scale and shift. -/
theorem stageB (V : Valuation τ sig (Elt F)) :
    after opsB V (Proc.devRef .tc main_v31)
      = Glue.batchNorm (V (Proc.devRef .tc main_v12)) (V (Proc.devRef .tc main_arg2)) (V (Proc.devRef .tc main_arg3)) := by
  dsimp only [opsB]
  after_results_simp
  rfl

/-- The second layer's result buffer: `layer2` of the normalised activation and the unit-length second weights. -/
theorem stageC (V : Valuation τ sig (Elt F)) :
    after opsC V (Proc.devRef .tc main_v43)
      = layer2 (V (Proc.devRef .tc main_v31)) (Glue.unitWeights2 (V (Proc.devRef .tc main_arg4))) := by
  dsimp only [opsC]
  after_results_simp
  rfl

/-- The second batch normalisation's result buffer: `batchNorm` of the second layer's result with its scale and shift. -/
theorem stageD (V : Valuation τ sig (Elt F)) :
    after opsD1 (after opsD0 V) (Proc.devRef .tc main_v62)
      = Glue.batchNorm (V (Proc.devRef .tc main_v43)) (V (Proc.devRef .tc main_arg5)) (V (Proc.devRef .tc main_arg6)) := by
  dsimp only [opsD0, opsD1]
  after_results_simp
  rfl

/-- The last result buffer: `layer3` of the normalised activation and the class weights. -/
theorem stageE (V : Valuation τ sig (Elt F)) :
    after opsE V (Proc.devRef .tc main_v63)
      = layer3 (V (Proc.devRef .tc main_v62)) (V (Proc.devRef .tc main_arg7)) := by
  dsimp only [opsE]
  after_results_simp
  rfl

/-! ## No stretch writes an argument -/

theorem keepA (V : Valuation τ sig (Elt F)) :
    after opsA V (Proc.devRef .tc main_arg0) = V (Proc.devRef .tc main_arg0)
      ∧ after opsA V (Proc.devRef .tc main_arg1) = V (Proc.devRef .tc main_arg1)
      ∧ after opsA V (Proc.devRef .tc main_arg2) = V (Proc.devRef .tc main_arg2)
      ∧ after opsA V (Proc.devRef .tc main_arg3) = V (Proc.devRef .tc main_arg3)
      ∧ after opsA V (Proc.devRef .tc main_arg4) = V (Proc.devRef .tc main_arg4)
      ∧ after opsA V (Proc.devRef .tc main_arg5) = V (Proc.devRef .tc main_arg5)
      ∧ after opsA V (Proc.devRef .tc main_arg6) = V (Proc.devRef .tc main_arg6)
      ∧ after opsA V (Proc.devRef .tc main_arg7) = V (Proc.devRef .tc main_arg7) := by
  refine ⟨?_, ?_, ?_, ?_, ?_, ?_, ?_, ?_⟩ <;> (dsimp only [opsA]; after_results_simp)

theorem keepB (V : Valuation τ sig (Elt F)) :
    after opsB V (Proc.devRef .tc main_arg0) = V (Proc.devRef .tc main_arg0)
      ∧ after opsB V (Proc.devRef .tc main_arg1) = V (Proc.devRef .tc main_arg1)
      ∧ after opsB V (Proc.devRef .tc main_arg2) = V (Proc.devRef .tc main_arg2)
      ∧ after opsB V (Proc.devRef .tc main_arg3) = V (Proc.devRef .tc main_arg3)
      ∧ after opsB V (Proc.devRef .tc main_arg4) = V (Proc.devRef .tc main_arg4)
      ∧ after opsB V (Proc.devRef .tc main_arg5) = V (Proc.devRef .tc main_arg5)
      ∧ after opsB V (Proc.devRef .tc main_arg6) = V (Proc.devRef .tc main_arg6)
      ∧ after opsB V (Proc.devRef .tc main_arg7) = V (Proc.devRef .tc main_arg7) := by
  refine ⟨?_, ?_, ?_, ?_, ?_, ?_, ?_, ?_⟩ <;> (dsimp only [opsB]; after_results_simp)

theorem keepC (V : Valuation τ sig (Elt F)) :
    after opsC V (Proc.devRef .tc main_arg0) = V (Proc.devRef .tc main_arg0)
      ∧ after opsC V (Proc.devRef .tc main_arg1) = V (Proc.devRef .tc main_arg1)
      ∧ after opsC V (Proc.devRef .tc main_arg2) = V (Proc.devRef .tc main_arg2)
      ∧ after opsC V (Proc.devRef .tc main_arg3) = V (Proc.devRef .tc main_arg3)
      ∧ after opsC V (Proc.devRef .tc main_arg4) = V (Proc.devRef .tc main_arg4)
      ∧ after opsC V (Proc.devRef .tc main_arg5) = V (Proc.devRef .tc main_arg5)
      ∧ after opsC V (Proc.devRef .tc main_arg6) = V (Proc.devRef .tc main_arg6)
      ∧ after opsC V (Proc.devRef .tc main_arg7) = V (Proc.devRef .tc main_arg7) := by
  refine ⟨?_, ?_, ?_, ?_, ?_, ?_, ?_, ?_⟩ <;> (dsimp only [opsC]; after_results_simp)

theorem keepD (V : Valuation τ sig (Elt F)) :
    after opsD1 (after opsD0 V) (Proc.devRef .tc main_arg0) = V (Proc.devRef .tc main_arg0)
      ∧ after opsD1 (after opsD0 V) (Proc.devRef .tc main_arg1) = V (Proc.devRef .tc main_arg1)
      ∧ after opsD1 (after opsD0 V) (Proc.devRef .tc main_arg2) = V (Proc.devRef .tc main_arg2)
      ∧ after opsD1 (after opsD0 V) (Proc.devRef .tc main_arg3) = V (Proc.devRef .tc main_arg3)
      ∧ after opsD1 (after opsD0 V) (Proc.devRef .tc main_arg4) = V (Proc.devRef .tc main_arg4)
      ∧ after opsD1 (after opsD0 V) (Proc.devRef .tc main_arg5) = V (Proc.devRef .tc main_arg5)
      ∧ after opsD1 (after opsD0 V) (Proc.devRef .tc main_arg6) = V (Proc.devRef .tc main_arg6)
      ∧ after opsD1 (after opsD0 V) (Proc.devRef .tc main_arg7) = V (Proc.devRef .tc main_arg7) := by
  refine ⟨?_, ?_, ?_, ?_, ?_, ?_, ?_, ?_⟩ <;> (dsimp only [opsD0, opsD1]; after_results_simp)

theorem keepE (V : Valuation τ sig (Elt F)) :
    after opsE V (Proc.devRef .tc main_arg0) = V (Proc.devRef .tc main_arg0)
      ∧ after opsE V (Proc.devRef .tc main_arg1) = V (Proc.devRef .tc main_arg1)
      ∧ after opsE V (Proc.devRef .tc main_arg2) = V (Proc.devRef .tc main_arg2)
      ∧ after opsE V (Proc.devRef .tc main_arg3) = V (Proc.devRef .tc main_arg3)
      ∧ after opsE V (Proc.devRef .tc main_arg4) = V (Proc.devRef .tc main_arg4)
      ∧ after opsE V (Proc.devRef .tc main_arg5) = V (Proc.devRef .tc main_arg5)
      ∧ after opsE V (Proc.devRef .tc main_arg6) = V (Proc.devRef .tc main_arg6)
      ∧ after opsE V (Proc.devRef .tc main_arg7) = V (Proc.devRef .tc main_arg7) := by
  refine ⟨?_, ?_, ?_, ?_, ?_, ?_, ?_, ?_⟩ <;> (dsimp only [opsE]; after_results_simp)

/-- An argument buffer after the whole line: as it was. -/
theorem keep (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_arg7) = V (Proc.devRef .tc main_arg7) := by
  rw [after_ops]
  have hA := keepA V
  have hB := keepB (after opsA V)
  have hC := keepC (after opsB (after opsA V))
  have hD := keepD (after opsC (after opsB (after opsA V)))
  have hE := keepE (after opsD1 (after opsD0 (after opsC (after opsB (after opsA V)))))
  exact ⟨hE.1.trans (hD.1.trans (hC.1.trans (hB.1.trans hA.1))),
    hE.2.1.trans (hD.2.1.trans (hC.2.1.trans (hB.2.1.trans hA.2.1))),
    hE.2.2.1.trans (hD.2.2.1.trans (hC.2.2.1.trans (hB.2.2.1.trans hA.2.2.1))),
    hE.2.2.2.1.trans (hD.2.2.2.1.trans (hC.2.2.2.1.trans (hB.2.2.2.1.trans hA.2.2.2.1))),
    hE.2.2.2.2.1.trans (hD.2.2.2.2.1.trans (hC.2.2.2.2.1.trans (hB.2.2.2.2.1.trans hA.2.2.2.2.1))),
    hE.2.2.2.2.2.1.trans (hD.2.2.2.2.2.1.trans (hC.2.2.2.2.2.1.trans (hB.2.2.2.2.2.1.trans hA.2.2.2.2.2.1))),
    hE.2.2.2.2.2.2.1.trans (hD.2.2.2.2.2.2.1.trans (hC.2.2.2.2.2.2.1.trans (hB.2.2.2.2.2.2.1.trans hA.2.2.2.2.2.2.1))),
    hE.2.2.2.2.2.2.2.trans (hD.2.2.2.2.2.2.2.trans (hC.2.2.2.2.2.2.2.trans (hB.2.2.2.2.2.2.2.trans hA.2.2.2.2.2.2.2)))⟩

/-- The last result buffer after the whole line: `out` of the arguments. Each stage reads the previous stage's result
    where that stage left it and the arguments where every earlier stretch left them. -/
theorem out_eq (V : Valuation τ sig (Elt F)) :
    after ops V (Proc.devRef .tc main_v63)
      = out (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  have hA := keepA V
  have hB := keepB (after opsA V)
  have hC := keepC (after opsB (after opsA V))
  have hD := keepD (after opsC (after opsB (after opsA V)))
  rw [after_ops, stageE, stageD, stageC, stageB, stageA,
    hD.2.2.2.2.2.2.2, hC.2.2.2.2.2.2.2, hB.2.2.2.2.2.2.2, hA.2.2.2.2.2.2.2,
    hC.2.2.2.2.2.1, hB.2.2.2.2.2.1, hA.2.2.2.2.2.1, hC.2.2.2.2.2.2.1, hB.2.2.2.2.2.2.1, hA.2.2.2.2.2.2.1,
    hB.2.2.2.2.1, hA.2.2.2.2.1, hA.2.2.1, hA.2.2.2.1]
  rfl

/-! ## The run -/

/-- On every device, for any float values, from any memory with zero counters: every weakly fair execution of the
    reference terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have hk := keep (F := F) (launchContents m c)
      ⟨(h c main_v63).trans (out_eq _),
        (h c main_arg0).trans hk.1, (h c main_arg1).trans hk.2.1, (h c main_arg2).trans hk.2.2.1,
        (h c main_arg3).trans hk.2.2.2.1, (h c main_arg4).trans hk.2.2.2.2.1, (h c main_arg5).trans hk.2.2.2.2.2.1,
        (h c main_arg6).trans hk.2.2.2.2.2.2.1, (h c main_arg7).trans hk.2.2.2.2.2.2.2⟩)
    (run_seq scopedRefs_eq scopedSems_eq defs main (fun _ => ops) main_eq
      (fun _ => ops_ok.imp fun _ h => h.1) m ρ
      (fun _ op hop => (List.forall_iff_forall_mem.1 ops_ok op hop).2))

end Cert.ReferenceIdeal.RefValue

end
-- ==== Proof.RefLayers.lean ====
/-
  The reference's layers read at an index: each is the specification's function.

  A layer's inner products contract the second axis of both operands, so at (b, o) the product is the sum over
  k of the left operand at (b, k) times the right operand at (o, k). The rows' norms are a sum along the row,
  carried back over the row by two broadcasts; the clamp is pointwise.
-/
import proofs.«121544_j45629732553070_1_alg».proof.Proof.RefDefs
import proofs.«121544_j45629732553070_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal Cert.ReferenceIdeal.Gen

/-! ## An inner product of rows with rows, read at an index -/

section RowsByRows
variable {B D O : ℕ}

/-- The dimension numbers of a product of a [B, D] by an [O, D] matrix that contracts the second axis of both:
    the left operand's first axis and the right operand's first axis are the result's two axes. -/
private abbrev rowsDims (w : DotDims.WF ⟨2, ![B, D]⟩ ⟨2, ![O, D]⟩ ⟨2, ![B, O]⟩ [1] [1] [0] [0] [] []) :
    DotDims ⟨2, ![B, D]⟩ ⟨2, ![O, D]⟩ ⟨2, ![B, O]⟩ := ⟨[1], [1], [0], [0], [], [], w⟩

variable (w : DotDims.WF ⟨2, ![B, D]⟩ ⟨2, ![O, D]⟩ ⟨2, ![B, O]⟩ [1] [1] [0] [0] [] [])

/-- The left operand's first coordinate is the result's first coordinate. -/
private theorem rows_lhs_0 (j : (⟨2, ![B, O]⟩ : Shape).Idx) (k : (rowsDims w).contr.Idx) :
    ((rowsDims w).lhsIdx j k 0).val = (j 0).val := by
  unfold DotDims.lhsIdx
  rw [dif_neg List.not_mem_nil, dif_pos (List.mem_singleton.mpr rfl)]
  rfl

/-- The left operand's second coordinate is the contracted coordinate. -/
private theorem rows_lhs_1 (j : (⟨2, ![B, O]⟩ : Shape).Idx) (k : (rowsDims w).contr.Idx) :
    ((rowsDims w).lhsIdx j k 1).val = (k ⟨0, Nat.one_pos⟩).val :=
  DotDims.lhsIdx_val_of_single (rowsDims w) (cl := 1) rfl j k

/-- The right operand's first coordinate is the result's second coordinate. -/
private theorem rows_rhs_0 (j : (⟨2, ![B, O]⟩ : Shape).Idx) (k : (rowsDims w).contr.Idx) :
    ((rowsDims w).rhsIdx j k 0).val = (j 1).val := by
  unfold DotDims.rhsIdx
  rw [dif_neg List.not_mem_nil, dif_pos (List.mem_singleton.mpr rfl)]
  rfl

/-- The right operand's second coordinate is the contracted coordinate. -/
private theorem rows_rhs_1 (j : (⟨2, ![B, O]⟩ : Shape).Idx) (k : (rowsDims w).contr.Idx) :
    ((rowsDims w).rhsIdx j k 1).val = (k ⟨0, Nat.one_pos⟩).val :=
  DotDims.rhsIdx_val_of_single (rowsDims w) (cr := 1) rfl j k

/-- The product at (b, o): the sum over k of the left operand at (b, k) times the right operand at (o, k). The sum
    over the one-axis contraction index is re-indexed by that axis's coordinate. -/
private theorem rows_dot_apply (prec : Option ContractPrecision) (H : FVec Ideal ⟨2, ![B, D]⟩ .f32)
    (W : FVec Ideal ⟨2, ![O, D]⟩ .f32) (b : Fin B) (o : Fin O) :
    Host.dotGeneral (rowsDims w) prec H W (ix2 b o) = ∑ k : Fin D, H (ix2 b k) * W (ix2 o k) := by
  show FloatOps.dotGeneral _ prec _ H W (ix2 b o) = _
  rw [Ideal.dotGeneral_apply, ← Equiv.sum_comp (contrEquiv1 (rowsDims w) D rfl rfl).symm]
  refine Finset.sum_congr rfl fun k _ => ?_
  have hk := contrEquiv1_symm_val (rowsDims w) D rfl rfl k
  have hl : (rowsDims w).lhsIdx (ix2 b o) ((contrEquiv1 (rowsDims w) D rfl rfl).symm k) = ix2 b k := by
    funext a
    apply Fin.ext
    match a with
    | ⟨0, _⟩ => exact rows_lhs_0 w _ _
    | ⟨1, _⟩ => exact (rows_lhs_1 w _ _).trans hk
  have hr : (rowsDims w).rhsIdx (ix2 b o) ((contrEquiv1 (rowsDims w) D rfl rfl).symm k) = ix2 o k := by
    funext a
    apply Fin.ext
    match a with
    | ⟨0, _⟩ => exact rows_rhs_0 w _ _
    | ⟨1, _⟩ => exact (rows_rhs_1 w _ _).trans hk
  rw [hl, hr]

end RowsByRows

/-! ## A row's norm carried back over the row, read at an index -/

/-- The host's quotient at an index is the extended reals' quotient of the elements. -/
private theorem hostDivf_apply {s : Shape} (x y : FVec Ideal s .f32) (i : s.Idx) :
    Host.divf (F := Ideal) x y i = Ideal.div (x i) (y i) := rfl

/-- The host's square root at an index is the extended reals' square root of the element. -/
private theorem hostSqrt_apply {s : Shape} (x : FVec Ideal s .f32) (i : s.Idx) :
    Host.sqrt (F := Ideal) x i = Ideal.sqrt (x i) := rfl

section UnitRows
variable {B D : ℕ}

/-- A sum along the rows of a [B, D] array, from the zero word, read at b: the sum over d of the array at (b, d).
    The initial value is the extended real 0 and drops out. -/
private theorem rowSum_apply (h' : (⟨2, ![B, D]⟩ : Shape).ReducesTo [1] ⟨1, ![B]⟩)
    (h : (⟨2, ![B, D]⟩ : Shape).Reduces [1] ⟨1, ![B]⟩) (hu : 0 < (⟨0, ![]⟩ : Shape).numel)
    (Y : FVec Ideal ⟨2, ![B, D]⟩ .f32) (b : Fin B) :
    Host.reduceAdd (F := Ideal) Y (constant (F := Ideal) ⟨0, ![]⟩ .f32 0x00000000#32) h' hu (ix1 b)
      = ∑ d : Fin D, Y (ix2 b d) := by
  unfold Host.reduceAdd
  rw [Ideal.hostReduceAdd_def, Ideal.hostReduceAdd_single h' h, constant_apply, Ideal.ofBits_zero_f32, zero_add]
  refine Finset.sum_congr rfl fun d _ => congrArg Y ?_
  funext a
  apply Fin.ext
  match a with
  | ⟨0, _⟩ => rfl
  | ⟨1, _⟩ => rfl

/-- A vector of length B made a [B, 1] column: at (b, 0) it reads the vector at b. -/
private theorem toColumn_apply {α : Type} (h : (⟨1, ![B]⟩ : Shape).BroadcastsInDim ⟨2, ![B, 1]⟩ ![0])
    (v : (⟨1, ![B]⟩ : Shape).Idx → α) (b : Fin B) (z : Fin 1) :
    broadcastInDim ⟨2, ![B, 1]⟩ ![0] h v (ix2 b z) = v (ix1 b) := by
  refine broadcastInDim_apply _ h v (ix2 b z) (ix1 b) fun a => ?_
  match a with
  | ⟨0, _⟩ =>
    show b.val = if B = 1 then 0 else b.val
    split
    · have := b.isLt; omega
    · rfl

/-- A scalar spread over any shape reads the scalar everywhere. -/
private theorem splat_apply {α : Type} {t : Shape} (h : (⟨0, ![]⟩ : Shape).BroadcastsInDim t ![])
    (v : (⟨0, ![]⟩ : Shape).Idx → α) (j : t.Idx) :
    broadcastInDim t ![] h v j = v ix0 :=
  broadcastInDim_apply _ h v j ix0 fun a => a.elim0

/-- A [B, 1] column spread along the rows of a [B, D] array: at (b, k) it reads the column at (b, 0). -/
private theorem alongRows_apply {α : Type} (h : (⟨2, ![B, 1]⟩ : Shape).BroadcastsInDim ⟨2, ![B, D]⟩ ![0, 1])
    (v : (⟨2, ![B, 1]⟩ : Shape).Idx → α) (b : Fin B) (k : Fin D) :
    broadcastInDim ⟨2, ![B, D]⟩ ![0, 1] h v (ix2 b k) = v (ix2 b (0 : Fin 1)) := by
  refine broadcastInDim_apply _ h v (ix2 b k) (ix2 b (0 : Fin 1)) fun a => ?_
  match a with
  | ⟨0, _⟩ =>
    show b.val = if B = 1 then 0 else b.val
    split
    · have := b.isLt; omega
    · rfl
  | ⟨1, _⟩ => rfl

/-- A row divided by its norm plus the constant, read at (b, k): the element over the square root of the row's sum
    of squares plus the constant. -/
private theorem unitRows_apply (h' : (⟨2, ![B, D]⟩ : Shape).ReducesTo [1] ⟨1, ![B]⟩)
    (h : (⟨2, ![B, D]⟩ : Shape).Reduces [1] ⟨1, ![B]⟩) (hu : 0 < (⟨0, ![]⟩ : Shape).numel)
    (hc : (⟨1, ![B]⟩ : Shape).BroadcastsInDim ⟨2, ![B, 1]⟩ ![0])
    (he : (⟨0, ![]⟩ : Shape).BroadcastsInDim ⟨2, ![B, 1]⟩ ![])
    (hr : (⟨2, ![B, 1]⟩ : Shape).BroadcastsInDim ⟨2, ![B, D]⟩ ![0, 1])
    (X : FVec Ideal ⟨2, ![B, D]⟩ .f32) (b : Fin B) (k : Fin D) :
    Host.divf (F := Ideal) X (broadcastInDim ⟨2, ![B, D]⟩ ![0, 1] hr
      (addf (Host.sqrt (F := Ideal) (broadcastInDim ⟨2, ![B, 1]⟩ ![0] hc
          (Host.reduceAdd (F := Ideal) (mulf X X) (constant (F := Ideal) ⟨0, ![]⟩ .f32 0x00000000#32) h' hu)))
        (broadcastInDim ⟨2, ![B, 1]⟩ ![] he (constant (F := Ideal) ⟨0, ![]⟩ .f32 0x2B8CBCCC#32)))) (ix2 b k)
      = Spec.unitRows X (ix2 b k) := by
  rw [hostDivf_apply, alongRows_apply hr _ b k, addf_apply, hostSqrt_apply, toColumn_apply hc _ b 0,
    rowSum_apply h' h hu (mulf X X) b, splat_apply he, constant_apply]
  rfl

end UnitRows

/-! ## The clamp, read at an index -/

/-- The minimum with one of the maximum with zero, both constants spread from scalars, read at an index. -/
private theorem clip_apply {t : Shape} (h : (⟨0, ![]⟩ : Shape).BroadcastsInDim t ![]) (Y : FVec Ideal t .f32) (j : t.Idx) :
    minimumf (broadcastInDim t ![] h (id (constant (F := Ideal) ⟨0, ![]⟩ .f32 0x3F800000#32)))
        (maximumf (broadcastInDim t ![] h (id (constant (F := Ideal) ⟨0, ![]⟩ .f32 0x00000000#32))) Y) j
      = min (Ideal.ofBits .f32 0x3F800000#32) (max (Ideal.ofBits .f32 0x00000000#32) (Y j)) := by
  rw [minimumf_apply, maximumf_apply, splat_apply h, splat_apply h]
  rfl

/-! ## The three layers -/

theorem layer1_eq (X : FVec Ideal S16384x3072 .f32) (Wn : FVec Ideal S300x3072 .f32) :
    layer1 (F := Ideal) X Wn = Spec.cosSim (B := 16384) (D := 3072) (O := 300) X Wn := by
  funext i
  obtain ⟨b, o, rfl⟩ : ∃ (b : Fin 16384) (o : Fin 300), i = ix2 b o := ⟨i 0, i 1, eq_ix2 i⟩
  unfold layer1 clip01
  refine (clip_apply _ _ (ix2 b o)).trans ?_
  unfold Spec.cosSim Spec.clamp01
  refine congrArg (fun y => min _ (max _ y)) ?_
  refine (rows_dot_apply _ none (unitRows1 X) Wn b o).trans ?_
  unfold Spec.dotRows
  refine Finset.sum_congr rfl fun k _ => congrArg (· * Wn (ix2 o k)) ?_
  unfold unitRows1
  exact unitRows_apply _ (by decide) _ _ _ _ X b k

theorem layer2_eq (X : FVec Ideal S16384x300 .f32) (Wn : FVec Ideal S300x300 .f32) :
    layer2 (F := Ideal) X Wn = Spec.cosSim (B := 16384) (D := 300) (O := 300) X Wn := by
  funext i
  obtain ⟨b, o, rfl⟩ : ∃ (b : Fin 16384) (o : Fin 300), i = ix2 b o := ⟨i 0, i 1, eq_ix2 i⟩
  unfold layer2 clip01
  refine (clip_apply _ _ (ix2 b o)).trans ?_
  unfold Spec.cosSim Spec.clamp01
  refine congrArg (fun y => min _ (max _ y)) ?_
  refine (rows_dot_apply _ none (unitRows2 X) Wn b o).trans ?_
  unfold Spec.dotRows
  refine Finset.sum_congr rfl fun k _ => congrArg (· * Wn (ix2 o k)) ?_
  unfold unitRows2
  exact unitRows_apply _ (by decide) _ _ _ _ X b k

theorem layer3_eq (H : FVec Ideal S16384x300 .f32) (W : FVec Ideal S10x300 .f32) :
    layer3 (F := Ideal) H W = Spec.dotRows (B := 16384) (D := 300) (O := 10) H W := by
  funext i
  obtain ⟨b, o, rfl⟩ : ∃ (b : Fin 16384) (o : Fin 10), i = ix2 b o := ⟨i 0, i 1, eq_ix2 i⟩
  unfold layer3 Spec.dotRows
  exact rows_dot_apply _ none H W b o

end Cert.ReferenceIdeal.RefValue

end
-- ==== Proof.lean ====
/-
  The certificate: a three-layer network — two layers of clamped cosine similarity, each followed by a batch
  normalisation, and a final inner-product layer — computed by three pipelined matrix kernels with the
  normalisations on the host between them, against the same network written as plain array operations.

  At the extended reals both are ONE function of the eight arguments (`Net.net`). Each cosine layer is, at `(b, o)`,
  `min 1 (max 0 (∑ k, (x(b,k) / (√(∑ d, x(b,d)²) + ε)) · wn(o,k)))` with `wn` the weight rows scaled the same way;
  the kernel computes it block of rows by block of rows against the TRANSPOSED unit-length weights in bf16 (a format
  change is the identity here, and a transposed operand only renames the summation index), the reference in one
  `dot_general` contracting the second axis of both operands. The batch normalisations and the weight scaling are
  the same host operations in both programs and are never opened. No step needs a finite input: the only law used is
  that a finite sum may be re-indexed, so the precondition is never consulted.

  The kernel's frames are the generated ones; its run with the result array named is the generated launch called
  again; the reference's frame is its run with the result dropped. The ideal pass rewrote nothing, so the
  idealized kernel is the kernel's own text read at the extended reals.
-/
import proofs.«121544_j45629732553070_1_alg».proof.Defs
import proofs.«121544_j45629732553070_1_alg».proof.Proof.Gen.Kernel.Frame
import proofs.«121544_j45629732553070_1_alg».proof.Proof.Gen.KernelIdeal.Frame
import proofs.«121544_j45629732553070_1_alg».proof.Proof.Gen.Pre_finite_inputs
import proofs.«121544_j45629732553070_1_alg».proof.Proof.KernelRun
import proofs.«121544_j45629732553070_1_alg».proof.Proof.KernelValue
import proofs.«121544_j45629732553070_1_alg».proof.Proof.RefRun
import proofs.«121544_j45629732553070_1_alg».proof.Proof.RefLayers
import Idealize.ShloMosaic.Adequacy
import Idealize.ShloMosaic.Init

noncomputable section

namespace Cert.Proof

open Idealize.ShloMosaic Idealize.SL.Sem

/-- The reference's composition of its layers is the network: each of its three layers is the specification's. -/
theorem ref_net (x : FVec Ideal Cert.ReferenceIdeal.S16384x3x32x32 .f32) (w1 : FVec Ideal Cert.ReferenceIdeal.S300x3072 .f32)
    (g1 b1 : FVec Ideal Cert.ReferenceIdeal.S300 .f32) (w2 : FVec Ideal Cert.ReferenceIdeal.S300x300 .f32)
    (g2 b2 : FVec Ideal Cert.ReferenceIdeal.S300 .f32) (w3 : FVec Ideal Cert.ReferenceIdeal.S10x300 .f32) :
    Cert.ReferenceIdeal.RefValue.out (F := Ideal) x w1 g1 b1 w2 g2 b2 w3 = Cert.Net.net x w1 g1 b1 w2 g2 b2 w3 := by
  unfold Cert.ReferenceIdeal.RefValue.out Cert.Net.net
  rw [Cert.ReferenceIdeal.RefValue.layer1_eq, Cert.ReferenceIdeal.RefValue.layer2_eq, Cert.ReferenceIdeal.RefValue.layer3_eq]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

/-- Both runs end with the result array at the network of the arguments, which agree. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.out_eq m ρ c), (h c).2⟩) (Cert.KernelIdeal.Gen.run_out m ρ)
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5, e6, e7⟩ := hagree c
    rw [e0, e1, e2, e3, e4, e5, e6, e7]
    exact ref_net _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
